-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S_ : Shape := ⟨0, ![]⟩
abbrev S8x1x100000 : Shape := ⟨3, ![8, 1, 100000]⟩
abbrev S8x100000 : Shape := ⟨2, ![8, 100000]⟩
abbrev S8x64x100352 : Shape := ⟨3, ![8, 64, 100352]⟩
abbrev S8x100352 : Shape := ⟨2, ![8, 100352]⟩
abbrev S8x1x100352 : Shape := ⟨3, ![8, 1, 100352]⟩
abbrev S8x64x32768 : Shape := ⟨3, ![8, 64, 32768]⟩
abbrev S1x64x512 : Shape := ⟨3, ![1, 64, 512]⟩
abbrev S1x1x512 : Shape := ⟨3, ![1, 1, 512]⟩
abbrev S1x64x32768 : Shape := ⟨3, ![1, 64, 32768]⟩
abbrev S32x72x1024 : Shape := ⟨3, ![32, 72, 1024]⟩
abbrev S64x512 : Shape := ⟨2, ![64, 512]⟩
abbrev S8x512 : Shape := ⟨2, ![8, 512]⟩
abbrev S72x512 : Shape := ⟨2, ![72, 512]⟩
abbrev S512 : Shape := ⟨1, ![512]⟩
abbrev S32x512 : Shape := ⟨2, ![32, 512]⟩
abbrev S1x512 : Shape := ⟨2, ![1, 512]⟩
abbrev S512x1024 : Shape := ⟨2, ![512, 1024]⟩
abbrev S512x1 : Shape := ⟨2, ![512, 1]⟩
abbrev S32x1x512 : Shape := ⟨3, ![32, 1, 512]⟩
abbrev S1x72x512 : Shape := ⟨3, ![1, 72, 512]⟩
abbrev S32x72x512 : Shape := ⟨3, ![32, 72, 512]⟩
abbrev S2304x512 : Shape := ⟨2, ![2304, 512]⟩
abbrev S2304x1024 : Shape := ⟨2, ![2304, 1024]⟩
abbrev S1x72x1024 : Shape := ⟨3, ![1, 72, 1024]⟩
abbrev S72x1024 : Shape := ⟨2, ![72, 1024]⟩
abbrev S64x1024 : Shape := ⟨2, ![64, 1024]⟩
abbrev S1x1024 : Shape := ⟨2, ![1, 1024]⟩
abbrev S1x64x1024 : Shape := ⟨3, ![1, 64, 1024]⟩
abbrev S8x64x32x32x32 : Shape := ⟨5, ![8, 64, 32, 32, 32]⟩

abbrev nBuf : Space → Nat
  | .hbm => 38
  | .vmem => 8
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3x100000, .f32⟩
  | .hbm, ⟨4, _⟩ => ⟨S8x3x100000, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S8x3x100000, .f32⟩
  | .hbm, ⟨9, _⟩ => ⟨S8x3x100000, .f32⟩
  | .hbm, ⟨10, _⟩ => ⟨S_, .f32⟩
  | .hbm, ⟨11, _⟩ => ⟨S8x3x100000, .f32⟩
  | .hbm, ⟨12, _⟩ => ⟨S8x3x100000, .f32⟩
  | .hbm, ⟨13, _⟩ => ⟨S8x3x100000, .f32⟩
  | .hbm, ⟨14, _⟩ => ⟨S8x3x100000, .i32⟩
  | .hbm, ⟨15, _⟩ => ⟨S8x1x100000, .i32⟩
  | .hbm, ⟨16, _⟩ => ⟨S8x100000, .i32⟩
  | .hbm, ⟨17, _⟩ => ⟨S8x1x100000, .i32⟩
  | .hbm, ⟨18, _⟩ => ⟨S8x100000, .i32⟩
  | .hbm, ⟨19, _⟩ => ⟨S8x1x100000, .i32⟩
  | .hbm, ⟨20, _⟩ => ⟨S8x100000, .i32⟩
  | .hbm, ⟨21, _⟩ => ⟨S_, .i32⟩
  | .hbm, ⟨22, _⟩ => ⟨S8x100000, .i32⟩
  | .hbm, ⟨23, _⟩ => ⟨S8x100000, .i32⟩
  | .hbm, ⟨24, _⟩ => ⟨S8x100000, .i32⟩
  | .hbm, ⟨25, _⟩ => ⟨S_, .i32⟩
  | .hbm, ⟨26, _⟩ => ⟨S_, .f32⟩
  | .hbm, ⟨27, _⟩ => ⟨S8x64x100352, .f32⟩
  | .hbm, ⟨28, _⟩ => ⟨S_, .i32⟩
  | .hbm, ⟨29, _⟩ => ⟨S_, .i32⟩
  | .hbm, ⟨30, _⟩ => ⟨S8x100352, .i32⟩
  | .hbm, ⟨31, _⟩ => ⟨S_, .i32⟩
  | .hbm, ⟨32, _⟩ => ⟨S_, .i32⟩
  | .hbm, ⟨33, _⟩ => ⟨S8x100352, .i32⟩
  | .hbm, ⟨34, _⟩ => ⟨S8x1x100352, .i32⟩
  | .hbm, ⟨35, _⟩ => ⟨S8x1x100352, .i32⟩
  | .hbm, ⟨36, _⟩ => ⟨S8x64x32768, .f32⟩
  | .hbm, ⟨37, _⟩ => ⟨S8x64x32x32x32, .f32⟩
  | .local _ .vmem, ⟨0, _⟩ => ⟨S1x64x512, .f32⟩
  | .local _ .vmem, ⟨1, _⟩ => ⟨S1x64x512, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x64x32768, .f32⟩
  | .local _ .vmem, ⟨7, _⟩ => ⟨S32x72x1024, .f32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call2_v0 : Ref sig .tc := ⟨.hbm, 26, rfl⟩
abbrev main_v14 : Ref sig .tc := ⟨.hbm, 27, rfl⟩
abbrev main_c_3 : Ref sig .tc := ⟨.hbm, 28, rfl⟩
abbrev main_call3_v0 : Ref sig .tc := ⟨.hbm, 29, rfl⟩
abbrev main_v15 : Ref sig .tc := ⟨.hbm, 30, rfl⟩
abbrev main_c_4 : Ref sig .tc := ⟨.hbm, 31, rfl⟩
abbrev main_call4_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 196], ![false, false]⟩

def k0_cond2 (i : grid0.Coords) : BitVec 1 :=
  let arg1 : BitVec 32 := BitVec.ofNat 32 (i 1).val
  let c195_i32 : BitVec 32 := 195#32
  let v39 : BitVec 1 := Scalar.cmpi .eq arg1 c195_i32
  let v40 : BitVec 32 := Scalar.extui v39
  let c0_i32_16 : BitVec 32 := 0#32
  let v41 : BitVec 1 := Scalar.cmpi .ne v40 c0_i32_16
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  slices_S8x3x100000_S8x1x100000_0_1_0 : S8x3x100000.Slices ![0, 1, 0] S8x1x100000
  slices_S8x3x100000_S8x1x100000_0_2_0 : S8x3x100000.Slices ![0, 2, 0] S8x1x100000
  bcast_S_S8x100000 : S_.BroadcastsInDim S8x100000 (![] : Fin 0 → Fin S8x100000.rank)
  pads_S8x64x100000_S8x64x100352_000_000_03520 : S8x64x100000.Pads (![0, 0, 0] : Fin 3 → Nat) ![0, 0, 352] ![0, 0, 0] S8x64x100352
  h_S_ : 0 < S_.numel
  pads_S8x100000_S8x100352_000_03520 : S8x100000.Pads (![0, 0] : Fin 2 → Nat) ![0, 352] ![0, 0] S8x100352
  shapeCasts_S8x100352_S8x1x100352 : S8x100352.ShapeCasts S8x1x100352
  inb_S32x72x1024_S32x72x1024_0_0_0 : ∀ a, (![0, 0, 0] : Fin 3 → Nat) a + S32x72x1024.size a ≤ S32x72x1024.size a
  h_S32x72x1024 : 0 < S32x72x1024.numel
  shapeCasts_S32x72x1024_S32x72x1024 : S32x72x1024.ShapeCasts S32x72x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  concatenates_S64x512_S8x512_S72x512_d0 : Shape.Concatenates [S64x512, S8x512] S72x512 0
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S32x512_d0_w32 : S32x512.Iotas .tc 32 [0]
  shapeCasts_S512_S1x512 : S512.ShapeCasts S1x512
  broadcasts_S1x512_S32x512 : S1x512.Broadcasts S32x512
  natLt_1_32 : 1 < 32
  iota_S512x1024_d1_w32 : S512x1024.Iotas .tc 32 [1]
  shapeCasts_S512_S512x1 : S512.ShapeCasts S512x1
  broadcasts_S512x1_S512x1024 : S512x1.Broadcasts S512x1024
  shapeCasts_S32x512_S32x1x512 : S32x512.ShapeCasts S32x1x512
  shapeCasts_S72x512_S1x72x512 : S72x512.ShapeCasts S1x72x512
  broadcasts_S32x1x512_S32x72x512 : S32x1x512.Broadcasts S32x72x512
  broadcasts_S1x72x512_S32x72x512 : S1x72x512.Broadcasts S32x72x512
  shapeCasts_S32x72x512_S2304x512 : S32x72x512.ShapeCasts S2304x512
  shapeCasts_S2304x1024_S32x72x1024 : S2304x1024.ShapeCasts S32x72x1024
  inb_S32x72x1024_S1x72x1024_0_0_0 : ∀ a, (![0, 0, 0] : Fin 3 → Nat) a + S1x72x1024.size a ≤ S32x72x1024.size a
  h_S1x72x1024 : 0 < S1x72x1024.numel
  shapeCasts_S1x72x1024_S72x1024 : S1x72x1024.ShapeCasts S72x1024
  slices_S72x1024_o0_0_S64x1024 : S72x1024.Slices ![0, 0] S64x1024
  slices_S72x1024_o64_0_S1x1024 : S72x1024.Slices ![64, 0] S1x1024
  broadcasts_S1x1024_S64x1024 : S1x1024.Broadcasts S64x1024
  inb_S1x64x32768_S1x64x1024_0_0_0 : ∀ a, (![0, 0, 0] : Fin 3 → Nat) a + S1x64x1024.size a ≤ S1x64x32768.size a
  h_S1x64x1024 : 0 < S1x64x1024.numel
  shapeCasts_S1x64x1024_S64x1024 : S1x64x1024.ShapeCasts S64x1024
  shapeCasts_S64x1024_S1x64x1024 : S64x1024.ShapeCasts S1x64x1024
  inb_S32x72x1024_S1x72x1024_1_0_0 : ∀ a, (![1, 0, 0] : Fin 3 → Nat) a + S1x72x1024.size a ≤ S32x72x1024.size a
  inb_S1x64x32768_S1x64x1024_0_0_1024 : ∀ a, (![0, 0, 1024] : Fin 3 → Nat) a + S1x64x1024.size a ≤ S1x64x32768.size a
  inb_S32x72x1024_S1x72x1024_2_0_0 : ∀ a, (![2, 0, 0] : Fin 3 → Nat) a + S1x72x1024.size a ≤ S32x72x1024.size a
  inb_S1x64x32768_S1x64x1024_0_0_2048 : ∀ a, (![0, 0, 2048] : Fin 3 → Nat) a + S1x64x1024.size a ≤ S1x64x32768.size a
  inb_S32x72x1024_S1x72x1024_3_0_0 : ∀ a, (![3, 0, 0] : Fin 3 → Nat) a + S1x72x1024.size a ≤ S32x72x1024.size a
  inb_S1x64x32768_S1x64x1024_0_0_3072 : ∀ a, (![0, 0, 3072] : Fin 3 → Nat) a + S1x64x1024.size a ≤ S1x64x32768.size a
  inb_S32x72x1024_S1x72x1024_4_0_0 : ∀ a, (![4, 0, 0] : Fin 3 → Nat) a + S1x72x1024.size a ≤ S32x72x1024.size a
  inb_S1x64x32768_S1x64x1024_0_0_4096 : ∀ a, (![0, 0, 4096] : Fin 3 → Nat) a + S1x64x1024.size a ≤ S1x64x32768.size a
  inb_S32x72x1024_S1x72x1024_5_0_0 : ∀ a, (![5, 0, 0] : Fin 3 → Nat) a + S1x72x1024.size a ≤ S32x72x1024.size a
  inb_S1x64x32768_S1x64x1024_0_0_5120 : ∀ a, (![0, 0, 5120] : Fin 3 → Nat) a + S1x64x1024.size a ≤ S1x64x32768.size a
  inb_S32x72x1024_S1x72x1024_6_0_0 : ∀ a, (![6, 0, 0] : Fin 3 → Nat) a + S1x72x1024.size a ≤ S32x72x1024.size a
  inb_S1x64x32768_S1x64x1024_0_0_6144 : ∀ a, (![0, 0, 6144] : Fin 3 → Nat) a + S1x64x1024.size a ≤ S1x64x32768.size a
  inb_S32x72x1024_S1x72x1024_7_0_0 : ∀ a, (![7, 0, 0] : Fin 3 → Nat) a + S1x72x1024.size a ≤ S32x72x1024.size a
  inb_S1x64x32768_S1x64x1024_0_0_7168 : ∀ a, (![0, 0, 7168] : Fin 3 → Nat) a + S1x64x1024.size a ≤ S1x64x32768.size a
  inb_S32x72x1024_S1x72x1024_8_0_0 : ∀ a, (![8, 0, 0] : Fin 3 → Nat) a + S1x72x1024.size a ≤ S32x72x1024.size a
  inb_S1x64x32768_S1x64x1024_0_0_8192 : ∀ a, (![0, 0, 8192] : Fin 3 → Nat) a + S1x64x1024.size a ≤ S1x64x32768.size a
  inb_S32x72x1024_S1x72x1024_9_0_0 : ∀ a, (![9, 0, 0] : Fin 3 → Nat) a + S1x72x1024.size a ≤ S32x72x1024.size a
  inb_S1x64x32768_S1x64x1024_0_0_9216 : ∀ a, (![0, 0, 9216] : Fin 3 → Nat) a + S1x64x1024.size a ≤ S1x64x32768.size a
  inb_S32x72x1024_S1x72x1024_10_0_0 : ∀ a, (![10, 0, 0] : Fin 3 → Nat) a + S1x72x1024.size a ≤ S32x72x1024.size a
  inb_S1x64x32768_S1x64x1024_0_0_10240 : ∀ a, (![0, 0, 10240] : Fin 3 → Nat) a + S1x64x1024.size a ≤ S1x64x32768.size a
  inb_S32x72x1024_S1x72x1024_11_0_0 : ∀ a, (![11, 0, 0] : Fin 3 → Nat) a + S1x72x1024.size a ≤ S32x72x1024.size a
  inb_S1x64x32768_S1x64x1024_0_0_11264 : ∀ a, (![0, 0, 11264] : Fin 3 → Nat) a + S1x64x1024.size a ≤ S1x64x32768.size a
  inb_S32x72x1024_S1x72x1024_12_0_0 : ∀ a, (![12, 0, 0] : Fin 3 → Nat) a + S1x72x1024.size a ≤ S32x72x1024.size a
  inb_S1x64x32768_S1x64x1024_0_0_12288 : ∀ a, (![0, 0, 12288] : Fin 3 → Nat) a + S1x64x1024.size a ≤ S1x64x32768.size a
  inb_S32x72x1024_S1x72x1024_13_0_0 : ∀ a, (![13, 0, 0] : Fin 3 → Nat) a + S1x72x1024.size a ≤ S32x72x1024.size a
  inb_S1x64x32768_S1x64x1024_0_0_13312 : ∀ a, (![0, 0, 13312] : Fin 3 → Nat) a + S1x64x1024.size a ≤ S1x64x32768.size a
  inb_S32x72x1024_S1x72x1024_14_0_0 : ∀ a, (![14, 0, 0] : Fin 3 → Nat) a + S1x72x1024.size a ≤ S32x72x1024.size a
  inb_S1x64x32768_S1x64x1024_0_0_14336 : ∀ a, (![0, 0, 14336] : Fin 3 → Nat) a + S1x64x1024.size a ≤ S1x64x32768.size a
  inb_S32x72x1024_S1x72x1024_15_0_0 : ∀ a, (![15, 0, 0] : Fin 3 → Nat) a + S1x72x1024.size a ≤ S32x72x1024.size a
  inb_S1x64x32768_S1x64x1024_0_0_15360 : ∀ a, (![0, 0, 15360] : Fin 3 → Nat) a + S1x64x1024.size a ≤ S1x64x32768.size a
  inb_S32x72x1024_S1x72x1024_16_0_0 : ∀ a, (![16, 0, 0] : Fin 3 → Nat) a + S1x72x1024.size a ≤ S32x72x1024.size a
  inb_S1x64x32768_S1x64x1024_0_0_16384 : ∀ a, (![0, 0, 16384] : Fin 3 → Nat) a + S1x64x1024.size a ≤ S1x64x32768.size a
  inb_S32x72x1024_S1x72x1024_17_0_0 : ∀ a, (![17, 0, 0] : Fin 3 → Nat) a + S1x72x1024.size a ≤ S32x72x1024.size a
  inb_S1x64x32768_S1x64x1024_0_0_17408 : ∀ a, (![0, 0, 17408] : Fin 3 → Nat) a + S1x64x1024.size a ≤ S1x64x32768.size a
  inb_S32x72x1024_S1x72x1024_18_0_0 : ∀ a, (![18, 0, 0] : Fin 3 → Nat) a + S1x72x1024.size a ≤ S32x72x1024.size a
  inb_S1x64x32768_S1x64x1024_0_0_18432 : ∀ a, (![0, 0, 18432] : Fin 3 → Nat) a + S1x64x1024.size a ≤ S1x64x32768.size a
  inb_S32x72x1024_S1x72x1024_19_0_0 : ∀ a, (![19, 0, 0] : Fin 3 → Nat) a + S1x72x1024.size a ≤ S32x72x1024.size a
  inb_S1x64x32768_S1x64x1024_0_0_19456 : ∀ a, (![0, 0, 19456] : Fin 3 → Nat) a + S1x64x1024.size a ≤ S1x64x32768.size a
  inb_S32x72x1024_S1x72x1024_20_0_0 : ∀ a, (![20, 0, 0] : Fin 3 → Nat) a + S1x72x1024.size a ≤ S32x72x1024.size a
  inb_S1x64x32768_S1x64x1024_0_0_20480 : ∀ a, (![0, 0, 20480] : Fin 3 → Nat) a + S1x64x1024.size a ≤ S1x64x32768.size a
  inb_S32x72x1024_S1x72x1024_21_0_0 : ∀ a, (![21, 0, 0] : Fin 3 → Nat) a + S1x72x1024.size a ≤ S32x72x1024.size a
  inb_S1x64x32768_S1x64x1024_0_0_21504 : ∀ a, (![0, 0, 21504] : Fin 3 → Nat) a + S1x64x1024.size a ≤ S1x64x32768.size a
  inb_S32x72x1024_S1x72x1024_22_0_0 : ∀ a, (![22, 0, 0] : Fin 3 → Nat) a + S1x72x1024.size a ≤ S32x72x1024.size a
  inb_S1x64x32768_S1x64x1024_0_0_22528 : ∀ a, (![0, 0, 22528] : Fin 3 → Nat) a + S1x64x1024.size a ≤ S1x64x32768.size a
  inb_S32x72x1024_S1x72x1024_23_0_0 : ∀ a, (![23, 0, 0] : Fin 3 → Nat) a + S1x72x1024.size a ≤ S32x72x1024.size a
  inb_S1x64x32768_S1x64x1024_0_0_23552 : ∀ a, (![0, 0, 23552] : Fin 3 → Nat) a + S1x64x1024.size a ≤ S1x64x32768.size a
  inb_S32x72x1024_S1x72x1024_24_0_0 : ∀ a, (![24, 0, 0] : Fin 3 → Nat) a + S1x72x1024.size a ≤ S32x72x1024.size a
  inb_S1x64x32768_S1x64x1024_0_0_24576 : ∀ a, (![0, 0, 24576] : Fin 3 → Nat) a + S1x64x1024.size a ≤ S1x64x32768.size a
  inb_S32x72x1024_S1x72x1024_25_0_0 : ∀ a, (![25, 0, 0] : Fin 3 → Nat) a + S1x72x1024.size a ≤ S32x72x1024.size a
  inb_S1x64x32768_S1x64x1024_0_0_25600 : ∀ a, (![0, 0, 25600] : Fin 3 → Nat) a + S1x64x1024.size a ≤ S1x64x32768.size a
  inb_S32x72x1024_S1x72x1024_26_0_0 : ∀ a, (![26, 0, 0] : Fin 3 → Nat) a + S1x72x1024.size a ≤ S32x72x1024.size a
  inb_S1x64x32768_S1x64x1024_0_0_26624 : ∀ a, (![0, 0, 26624] : Fin 3 → Nat) a + S1x64x1024.size a ≤ S1x64x32768.size a
  inb_S32x72x1024_S1x72x1024_27_0_0 : ∀ a, (![27, 0, 0] : Fin 3 → Nat) a + S1x72x1024.size a ≤ S32x72x1024.size a
  inb_S1x64x32768_S1x64x1024_0_0_27648 : ∀ a, (![0, 0, 27648] : Fin 3 → Nat) a + S1x64x1024.size a ≤ S1x64x32768.size a
  inb_S32x72x1024_S1x72x1024_28_0_0 : ∀ a, (![28, 0, 0] : Fin 3 → Nat) a + S1x72x1024.size a ≤ S32x72x1024.size a
  inb_S1x64x32768_S1x64x1024_0_0_28672 : ∀ a, (![0, 0, 28672] : Fin 3 → Nat) a + S1x64x1024.size a ≤ S1x64x32768.size a
  inb_S32x72x1024_S1x72x1024_29_0_0 : ∀ a, (![29, 0, 0] : Fin 3 → Nat) a + S1x72x1024.size a ≤ S32x72x1024.size a
  inb_S1x64x32768_S1x64x1024_0_0_29696 : ∀ a, (![0, 0, 29696] : Fin 3 → Nat) a + S1x64x1024.size a ≤ S1x64x32768.size a
  inb_S32x72x1024_S1x72x1024_30_0_0 : ∀ a, (![30, 0, 0] : Fin 3 → Nat) a + S1x72x1024.size a ≤ S32x72x1024.size a
  inb_S1x64x32768_S1x64x1024_0_0_30720 : ∀ a, (![0, 0, 30720] : Fin 3 → Nat) a + S1x64x1024.size a ≤ S1x64x32768.size a
  inb_S32x72x1024_S1x72x1024_31_0_0 : ∀ a, (![31, 0, 0] : Fin 3 → Nat) a + S1x72x1024.size a ≤ S32x72x1024.size a
  inb_S1x64x32768_S1x64x1024_0_0_31744 : ∀ a, (![0, 0, 31744] : Fin 3 → Nat) a + S1x64x1024.size a ≤ S1x64x32768.size a
  shapeCasts_S8x64x32768_S8x64x32x32x32 : S8x64x32768.ShapeCasts S8x64x32x32x32
  dot_S2304x512_S512x1024_S2304x1024_1_0_0_1_n_n_wf : DotDims.WF S2304x512 S512x1024 S2304x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x64x100352.size a
  hwx0_0 : ∀ i : grid0.Coords, EltTy.bits .f32 = 32 ∨ (Rect.block (s := S8x64x100352) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x100352.size a
  hwx0_1 : ∀ i : grid0.Coords, EltTy.bits .i32 = 32 ∨ (Rect.block (s := S8x1x100352) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x100352.size a
  hwx0_2 : ∀ i : grid0.Coords, EltTy.bits .i32 = 32 ∨ (Rect.block (s := S8x1x100352) S1x1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x32768.size a ≤ S8x64x32768.size a
  hwx0_3 : ∀ i : grid0.Coords, EltTy.bits .f32 = 32 ∨ (Rect.block (s := S8x64x32768) S1x64x32768.size (cc0_transform_3 i) (hinb0_3 i)).WholeWords (EltTy.packing .f32)

variable [Facts₀]

def dot_S2304x512_S512x1024_S2304x1024_1_0_0_1_n_n : DotDims S2304x512 S512x1024 S2304x1024 where
  lhsContracting := [1]
  rhsContracting := [0]
  lhsNonContracting := [0]
  rhsNonContracting := [1]
  lhsBatch := []
  rhsBatch := []
  wf := dot_S2304x512_S512x1024_S2304x1024_1_0_0_1_n_n_wf

abbrev win0_0 : Pipeline.Window sig grid0 :=
  Pipeline.Window.ofSpec (Memref.whole main_v14) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64x32768.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x1x100000 : Shape := ⟨3, ![8, 1, 100000]⟩
abbrev S8x100000 : Shape := ⟨2, ![8, 100000]⟩
abbrev S8 : Shape := ⟨1, ![8]⟩
abbrev S8x1 : Shape := ⟨2, ![8, 1]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32768x64 : Shape := ⟨3, ![8, 32768, 64]⟩
abbrev S8x64x32768 : Shape := ⟨3, ![8, 64, 32768]⟩
abbrev S8x64x32x32x32 : Shape := ⟨5, ![8, 64, 32, 32, 32]⟩

abbrev nBuf : Space → Nat
  | .hbm => 61
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3x100000, .f32⟩
  | .hbm, ⟨4, _⟩ => ⟨S8x3x100000, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S8x3x100000, .f32⟩
  | .hbm, ⟨9, _⟩ => ⟨S8x3x100000, .f32⟩
  | .hbm, ⟨10, _⟩ => ⟨S_, .f32⟩
  | .hbm, ⟨11, _⟩ => ⟨S8x3x100000, .f32⟩
  | .hbm, ⟨12, _⟩ => ⟨S8x3x100000, .f32⟩
  | .hbm, ⟨13, _⟩ => ⟨S8x3x100000, .f32⟩
  | .hbm, ⟨14, _⟩ => ⟨S8x3x100000, .i32⟩
  | .hbm, ⟨15, _⟩ => ⟨S8x1x100000, .i32⟩
  | .hbm, ⟨16, _⟩ => ⟨S8x100000, .i32⟩
  | .hbm, ⟨17, _⟩ => ⟨S_, .i32⟩
  | .hbm, ⟨18, _⟩ => ⟨S8x100000, .i32⟩
  | .hbm, ⟨19, _⟩ => ⟨S8x100000, .i32⟩
  | .hbm, ⟨20, _⟩ => ⟨S_, .i32⟩
  | .hbm, ⟨21, _⟩ => ⟨S8x100000, .i32⟩
  | .hbm, ⟨22, _⟩ => ⟨S8x100000, .i32⟩
  | .hbm, ⟨23, _⟩ => ⟨S8x1x100000, .i32⟩
  | .hbm, ⟨24, _⟩ => ⟨S8x100000, .i32⟩
  | .hbm, ⟨25, _⟩ => ⟨S_, .i32⟩
  | .hbm, ⟨26, _⟩ => ⟨S8x100000, .i32⟩
  | .hbm, ⟨27, _⟩ => ⟨S8x100000, .i32⟩
  | .hbm, ⟨28, _⟩ => ⟨S8x100000, .i32⟩
  | .hbm, ⟨29, _⟩ => ⟨S8x1x100000, .i32⟩
  | .hbm, ⟨30, _⟩ => ⟨S8x100000, .i32⟩
  | .hbm, ⟨31, _⟩ => ⟨S8x100000, .i32⟩
  | .hbm, ⟨32, _⟩ => ⟨S8, .i32⟩
  | .hbm, ⟨33, _⟩ => ⟨S8x1, .i32⟩
  | .hbm, ⟨34, _⟩ => ⟨S_, .i32⟩
  | .hbm, ⟨35, _⟩ => ⟨S8x1, .i32⟩
  | .hbm, ⟨36, _⟩ => ⟨S8x1, .i32⟩
  | .hbm, ⟨37, _⟩ => ⟨S8x100000, .i32⟩
  | .hbm, ⟨38, _⟩ => ⟨S8x100000, .i32⟩
  | .hbm, ⟨39, _⟩ => ⟨S800000, .i32⟩
  | .hbm, ⟨40, _⟩ => ⟨S8x100000x64, .f32⟩
  | .hbm, ⟨41, _⟩ => ⟨S800000x64, .f32⟩
  | .hbm, ⟨42, _⟩ => ⟨S_, .f32⟩
  | .hbm, ⟨43, _⟩ => ⟨S262144x64, .f32⟩
  | .hbm, ⟨44, _⟩ => ⟨S800000x1, .i32⟩
  | .hbm, ⟨45, _⟩ => ⟨S262144x64, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S262144, .f32⟩
  | .hbm, ⟨50, _⟩ => ⟨S800000x1, .i32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S262144, .f32⟩
  | .hbm, ⟨55, _⟩ => ⟨S262144x1, .f32⟩
  | .hbm, ⟨56, _⟩ => ⟨S262144x64, .f32⟩
  | .hbm, ⟨57, _⟩ => ⟨S262144x64, .f32⟩
  | .hbm, ⟨58, _⟩ => ⟨S8x32768x64, .f32⟩
  | .hbm, ⟨59, _⟩ => ⟨S8x64x32768, .f32⟩
  | .hbm, ⟨60, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32768x64 : S262144x64.ShapeCasts S8x32768x64
  transposes_S8x32768x64_S8x64x32768_0_2_1 : S8x32768x64.Transposes [0, 2, 1] S8x64x32768
  shapeCasts_S8x64x32768_S8x64x32x32x32 : S8x64x32768.ShapeCasts S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.LibOneHot.lean ====
/-
  One-hot rows and sums against them, on the extended reals.

  A one-hot row for a 32-bit word `w` has the entry `1` at the position `v` whose 32-bit numeral is `w` and `0` everywhere
  else. A vector unit builds the entry by comparing, widening the one-bit answer to a word and converting the word
  signed; a host program converts the one-bit answer unsigned. Both give the number of the answer bit (`hot_of_widened`,
  `hot_of_bit`), which is `0` or `1` (`hot_eq_ite`).

  A sum of products over `n + p` positions whose last `p` terms vanish is the sum over the first `n`
  (`sum_zero_tail`): what is left of a table padded with `p` zero rows when it is contracted against any row, since
  `x * 0 = 0` for every extended real `x`, the infinities included (`sum_mul_padded`).

  `lookup tok tab` is the embedding lookup written as the one-hot product: for a B x S array of token words and a
  V x D table, entry (a, b, d) is the sum over the table's rows v of (one-hot row of token (a, b) at v) times (table
  entry (v, d)) — the table's row numbered by the token when that number is below V, and zero otherwise.
-/
import Idealize.ShloMosaic.PureOps.Ideal
import Idealize.ShloMosaic.Lib.KernelVsHost
import Idealize.ShloMosaic.Lib.ValueIdx

noncomputable section

open scoped BigOperators

namespace OneHotSum

open Idealize.ShloMosaic

/-- Entry `v` of the one-hot row for the word `w`: the answer bit of "`w` is the 32-bit numeral of `v`", as a number. -/
def hot (w : BitVec 32) (v : Nat) : EReal := (((IntOp.cmpi .eq w (BitVec.ofNat 32 v)).toNat : ℝ) : EReal)

/-- It is `1` where the word is the position's numeral and `0` elsewhere. -/
theorem hot_eq_ite (w : BitVec 32) (v : Nat) : hot w v = if w = BitVec.ofNat 32 v then 1 else 0 := by
  unfold hot IntOp.cmpi
  by_cases h : w = BitVec.ofNat 32 v
  · simp [h]
  · simp [h]

/-- The host's conversion of the answer bit, read unsigned, is the entry. -/
theorem hot_of_bit (w : BitVec 32) (v : Nat) :
    FloatOps.uitofp (F := Ideal) .f32 (IntOp.cmpi .eq w (BitVec.ofNat 32 v)) = hot w v := rfl

/-- The vector unit's conversion — the answer bit widened to a word, the word read signed — is the entry. -/
theorem hot_of_widened (w : BitVec 32) (v : Nat) :
    FloatOps.sitofp (F := Ideal) .f32 ((IntOp.cmpi .eq w (BitVec.ofNat 32 v)).setWidth 32) = hot w v := by
  show (((((IntOp.cmpi .eq w (BitVec.ofNat 32 v)).setWidth 32).toInt : ℤ) : ℝ) : EReal) = _
  rw [toInt_setWidth_bit]
  unfold hot
  norm_cast

/-- A sum over `n + p` positions whose last `p` terms are zero is the sum over the first `n`. -/
theorem sum_zero_tail {M : Type*} [AddCommMonoid M] {n p : Nat} (f : Fin (n + p) → M)
    (h : ∀ j : Fin p, f (Fin.natAdd n j) = 0) : ∑ k, f k = ∑ v : Fin n, f (Fin.castAdd p v) := by
  rw [Fin.sum_univ_add, Finset.sum_eq_zero (fun j _ => h j), add_zero]

/-- A row contracted against a table whose last `p` rows are zero: only the first `n` rows count, whatever the row holds. -/
theorem sum_mul_padded {n p : Nat} (a b : Fin (n + p) → EReal) (hb : ∀ j : Fin p, b (Fin.natAdd n j) = 0) :
    ∑ k, a k * b k = ∑ v : Fin n, a (Fin.castAdd p v) * b (Fin.castAdd p v) :=
  sum_zero_tail (fun k => a k * b k) fun j => by rw [hb j, mul_zero]

/-- The embedding lookup as a one-hot product: entry (a, b, d) sums, over the table's rows, token (a, b)'s one-hot row
    times column d. -/
def lookup {B S V D : Nat} (tok : (⟨2, ![B, S]⟩ : Shape).Idx → BitVec 32) (tab : (⟨2, ![V, D]⟩ : Shape).Idx → EReal) :
    (⟨3, ![B, S, D]⟩ : Shape).Idx → EReal :=
  fun i => ∑ v : Fin V, hot (tok (ValueIdx.ix2 (i 0) (i 1))) v.val * tab (ValueIdx.ix2 v (i 2))

end OneHotSum

end
-- ==== Proof.VoxelSpec.lean ====
/-
  Voxel means, stated once for both programs.

  Every point n of batch b carries three coordinate words (x, y, z), each a number from 0 to 31; its cell is
  x * 1024 + y * 32 + z, one of the 32768 cells of the batch. For a channel c the total of a cell is the sum of the
  channel's values over the points lying in the cell, the count of a cell the number of those points, and the mean
  the total divided by the larger of the count and one (so an empty cell has mean 0 / 1 = 0). All sums are sums of
  extended reals; they are never re-ordered through a cancellation, only re-grouped.

  The same total is reached by going through the points 512 at a time: tile s holds the points s * 512 + k, and a
  padded point (number 100000 or more) carries the x word -1, which is no cell's x, so it adds nothing. In that form
  a point lies in cell (x, q), q = y * 32 + z, when its x word is the numeral of x and its word y * 32 + z is the
  numeral of q: the product of two one-hot entries (contrib).
-/
import Idealize.ShloMosaic.PureOps.Ideal
import Idealize.ShloMosaic.Lib.ValueIdx
import proofs.«126858_j17489106830002_1_alg».proof.Proof.LibOneHot

noncomputable section

open scoped BigOperators

namespace Voxel

open Idealize.ShloMosaic Idealize.ShloMosaic.ValueIdx OneHotSum

abbrev SFeat : Shape := ⟨3, ![8, 64, 100000]⟩
abbrev SCoord : Shape := ⟨3, ![8, 3, 100000]⟩
abbrev SMean : Shape := ⟨3, ![8, 64, 32768]⟩
abbrev S0 : Shape := ⟨0, ![]⟩

/-- The coordinate words of every point: the coordinate scaled by 32, clipped to [0, 31], rounded to the nearest
    integer (ties to even) and converted to a 32-bit word. -/
def words (hb : S0.BroadcastsInDim SCoord (![] : Fin 0 → Fin SCoord.rank)) (coords : FVec Ideal SCoord .f32) :
    IVec SCoord 32 :=
  fptosi (F := Ideal) 32 (Host.roundeven (F := Ideal)
    (minimumf (F := Ideal) (broadcastInDim SCoord ![] hb (sitofp (F := Ideal) .f32 (constantI S0 32 31#32)))
      (maximumf (F := Ideal) (broadcastInDim SCoord ![] hb (sitofp (F := Ideal) .f32 (constantI S0 32 0#32)))
        (mulf (F := Ideal) coords (broadcastInDim SCoord ![] hb (constant (F := Ideal) S0 .f32 0x42000000#32))))))

/-- The cell of point n of batch b: x * 1024 + y * 32 + z of its three words read as numbers. -/
def cell (vc : IVec SCoord 32) (b : Fin 8) (n : Fin 100000) : ℕ :=
  (vc (ix3 b (0 : Fin 3) n)).toNat * 1024 + (vc (ix3 b (1 : Fin 3) n)).toNat * 32 + (vc (ix3 b (2 : Fin 3) n)).toNat

/-- The total of channel c over the points of batch b lying in cell v. -/
def total (feat : FVec Ideal SFeat .f32) (vc : IVec SCoord 32) (b : Fin 8) (c : Fin 64) (v : ℕ) : EReal :=
  ∑ n : Fin 100000, if cell vc b n = v then feat (ix3 b c n) else 0

/-- The number of points of batch b lying in cell v. -/
def count (vc : IVec SCoord 32) (b : Fin 8) (v : ℕ) : EReal :=
  ∑ n : Fin 100000, if cell vc b n = v then (1 : EReal) else 0

/-- The number one as the 32-bit float pattern both programs compare the count with. -/
def one32 : EReal := Ideal.ofBits .f32 0x3F800000#32
/-- The number one as the 16-bit float pattern the rows of ones hold. -/
def one16 : EReal := Ideal.ofBits .bf16 0x3F80#16

/-- The mean of channel c in cell v of batch b. -/
def meanAt (feat : FVec Ideal SFeat .f32) (vc : IVec SCoord 32) (b : Fin 8) (c : Fin 64) (v : Fin 32768) : EReal :=
  Ideal.div (total feat vc b c v.val) (max (count vc b v.val) one32)

/-- The means as one array over (batch, channel, cell). -/
def mean (feat : FVec Ideal SFeat .f32) (vc : IVec SCoord 32) : FVec Ideal SMean .f32 :=
  fun i => meanAt feat vc (i 0) (i 1) (i 2)

theorem mean_ix3 (feat : FVec Ideal SFeat .f32) (vc : IVec SCoord 32) (b : Fin 8) (c : Fin 64) (v : Fin 32768) :
    mean feat vc (ix3 b c v) = meanAt feat vc b c v := rfl

/-! ## The padded point axis, 512 points at a time -/

/-- Channel c of point n' of batch b on the padded axis: zero from point 100000 on. -/
def featPad (feat : FVec Ideal SFeat .f32) (b : Fin 8) (c : Fin 64) (n' : ℕ) : EReal :=
  if h : n' < 100000 then feat (ix3 b c ⟨n', h⟩) else 0

/-- The x word of point n' on the padded axis: the word -1 from point 100000 on. -/
def xPad (vc : IVec SCoord 32) (b : Fin 8) (n' : ℕ) : BitVec 32 :=
  if h : n' < 100000 then vc (ix3 b (0 : Fin 3) ⟨n', h⟩) else 4294967295#32

/-- The word y * 32 + z of point n' on the padded axis: the word 0 from point 100000 on. -/
def yzPad (vc : IVec SCoord 32) (b : Fin 8) (n' : ℕ) : BitVec 32 :=
  if h : n' < 100000 then vc (ix3 b (1 : Fin 3) ⟨n', h⟩) * 32#32 + vc (ix3 b (2 : Fin 3) ⟨n', h⟩) else 0#32

/-- Row c' of the 72 augmented rows at point n': the 64 channels, then rows of ones. -/
def augPad (feat : FVec Ideal SFeat .f32) (b : Fin 8) (c' : Fin 72) (n' : ℕ) : EReal :=
  if h : c'.val < 64 then featPad feat b ⟨c'.val, h⟩ n' else one16

/-- What point n' adds to row c' of cell (x, q): its augmented row's entry if the point lies in the cell, else 0. -/
def contrib (feat : FVec Ideal SFeat .f32) (vc : IVec SCoord 32) (b : Fin 8) (x : Fin 32) (c' : Fin 72) (q : Fin 1024)
    (n' : ℕ) : EReal :=
  (hot (xPad vc b n') x.val * augPad feat b c' n') * hot (yzPad vc b n') q.val

/-- Row c' of cell (x, q) after the first T tiles of 512 points. -/
def accum (feat : FVec Ideal SFeat .f32) (vc : IVec SCoord 32) (b : Fin 8) (x : Fin 32) (c' : Fin 72) (q : Fin 1024)
    (T : ℕ) : EReal :=
  ∑ s ∈ Finset.range T, ∑ k : Fin 512, contrib feat vc b x c' q (s * 512 + k.val)

theorem accum_zero (feat : FVec Ideal SFeat .f32) (vc : IVec SCoord 32) (b : Fin 8) (x : Fin 32) (c' : Fin 72)
    (q : Fin 1024) : accum feat vc b x c' q 0 = 0 := by
  unfold accum; rw [Finset.range_zero, Finset.sum_empty]

theorem accum_succ (feat : FVec Ideal SFeat .f32) (vc : IVec SCoord 32) (b : Fin 8) (x : Fin 32) (c' : Fin 72)
    (q : Fin 1024) (T : ℕ) :
    accum feat vc b x c' q (T + 1)
      = accum feat vc b x c' q T + ∑ k : Fin 512, contrib feat vc b x c' q (T * 512 + k.val) := by
  unfold accum; rw [Finset.sum_range_succ]

end Voxel

end
-- ==== Proof.KernelPay.lean ====
/-
  Three payloads of the voxel kernel's body, read at an index at the ideal values.

  The zero payload is zero everywhere. The slab payload divides, for one x slab of the accumulator, each of the 64
  channel rows by the larger of row 64 (the count row) and one. The tile payload adds to the accumulator, at row c' of
  cell (x, q), the sum over the tile's 512 points of (one-hot of the x word at x) * (augmented row c' at the point) *
  (one-hot of the yz word at q): a product of matrices whose accumulator is zero is the sum of the operands' products
  over the contracted axis, the reshapes between [32, 72, .] and [2304, .] keep the row-major position 72 * x + c', and
  every change of format is the identity on the extended reals.
-/
import proofs.«126858_j17489106830002_1_alg».proof.Proof.Gen.KernelIdeal.Skeleton
import proofs.«126858_j17489106830002_1_alg».proof.Proof.VoxelSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

/-! ## The zero payload -/

/-- The payload the first tile stores into the accumulator is zero at every index. -/
theorem pay49_apply (x : Fin 32) (c' : Fin 72) (q : Fin 1024) : k0_pay49 (F := Ideal) (ix3 x c' q) = 0 := by
  show shapeCast S32x72x1024 (broadcast S32x72x1024 (Scalar.ofBits (F := Ideal) .f32 0x00000000#32))
    shapeCasts_S32x72x1024_S32x72x1024 (ix3 x c' q) = 0
  rw [shapeCast_self]
  exact Ideal.ofBits_zero_f32

/-! ## The slab payload -/

/-- One x slab of the accumulator, written out: channel row c at q is row c divided by the larger of row 64 and one. -/
theorem slab_apply (v : Vec Ideal S1x72x1024 .f32) (c : Fin 64) (q : Fin 1024) :
    k0_pay3 (F := Ideal) v (ix3 (0 : Fin 1) c q)
      = Ideal.div (v (ix3 (0 : Fin 1) (⟨c.val, by omega⟩ : Fin 72) q))
          (max (v (ix3 (0 : Fin 1) (⟨64, by omega⟩ : Fin 72) q)) Voxel.one32) := by
  unfold k0_pay3
  refine (shapeCast_ab_1ab_apply _ _ (0 : Fin 1) c q).trans ?_
  refine (divf_apply _ _ _).trans ?_
  congr 1
  · refine (slice2_axis0_apply 0 _ _ c q (⟨c.val, by omega⟩ : Fin 72) (by simp)).trans ?_
    exact shapeCast_1ab_ab_apply _ _ _ _
  · refine (broadcastTo_1b_ab_apply _ _ c q).trans ?_
    refine (maximumf_apply _ _ _).trans ?_
    congr 1
    refine (slice2_axis0_apply 64 _ _ (0 : Fin 1) q (⟨64, by omega⟩ : Fin 72) (by simp)).trans ?_
    exact shapeCast_1ab_ab_apply _ _ _ _

/-! ## The tile payload -/

/-- One tile's sum for row c' of cell (x, q), over the tile's three literal blocks. -/
def tileSum (x0 : Vec Ideal S1x64x512 .f32) (x1 x2 : Vec Ideal S1x1x512 .i32) (x : Fin 32) (c' : Fin 72) (q : Fin 1024) : EReal :=
  ∑ k : Fin 512, (OneHotSum.hot (x1 (ix3 (0 : Fin 1) (0 : Fin 1) k)) x.val
      * (if h : c'.val < 64 then x0 (ix3 (0 : Fin 1) (⟨c'.val, h⟩ : Fin 64) k) else Voxel.one16))
    * OneHotSum.hot (x2 (ix3 (0 : Fin 1) (0 : Fin 1) k)) q.val

/-- The answer bit of a comparison for equality does not depend on the order of the two words. -/
theorem cmpi_eq_comm (a b : BitVec 32) : IntOp.cmpi .eq a b = IntOp.cmpi .eq b a := by
  by_cases h : a = b
  · subst h; rfl
  · have h' : ¬b = a := fun e => h e.symm
    show BitVec.ofBool (a == b) = BitVec.ofBool (b == a)
    rw [show (a == b) = false from by simp [h], show (b == a) = false from by simp [h']]

/-- A block of 512 words read as a vector: entry k of the [1, 1, 512] block. -/
theorem words_apply (w : Vec Ideal S1x1x512 .i32) (h : S1x1x512.ShapeCasts S512) (k : Fin 512) :
    shapeCast S512 w h (ix1 k) = w (ix3 (0 : Fin 1) (0 : Fin 1) k) :=
  shapeCast_apply w h _ _ (by
    rw [Shape.rowMajor_val_three, Shape.rowMajor_val_one]
    show (0 * 1 + 0) * 512 + k.val = k.val
    omega)

/-- The x one-hot [32, 512]: at (x, k) the entry of the one-hot row of point k's x word at position x. The position
    is compared with the word, the answer bit widened to a word, read signed, and narrowed to sixteen bits (the
    identity on the extended reals). -/
theorem xhot_apply (x1 : Vec Ideal S1x1x512 .i32) (h1 : S1x1x512.ShapeCasts S512) (h2 : S512.ShapeCasts S1x512)
    (h3 : S1x512.Broadcasts S32x512) (hi : S32x512.Iotas .tc 32 [0]) (hn : 1 < 32) (hb : FTy.bits .bf16 < FTy.bits .f32)
    (x : Fin 32) (k : Fin 512) :
    (truncf (F := Ideal) .bf16 (sitofp (F := Ideal) .f32 (extui 32 (cmpi .eq (iota .tc S32x512 32 [0] hi)
        (broadcastTo S32x512 (shapeCast S1x512 (shapeCast S512 x1 h1) h2) h3)) hn)) hb) (ix2 x k)
      = OneHotSum.hot (x1 (ix3 (0 : Fin 1) (0 : Fin 1) k)) x.val := by
  show FloatOps.sitofp (F := Ideal) .f32 ((IntOp.cmpi .eq (iota .tc S32x512 32 [0] hi (ix2 x k))
      (broadcastTo S32x512 (shapeCast S1x512 (shapeCast S512 x1 h1) h2) h3 (ix2 x k))).setWidth 32) = _
  rw [cmpi_eq_comm, iota_single_apply, broadcastTo_1b_ab_apply, shapeCast_a_1a_apply, words_apply]
  exact OneHotSum.hot_of_widened _ _

/-- The yz one-hot [512, 1024]: at (k, q) the entry of the one-hot row of point k's yz word at position q. -/
theorem yzhot_apply (x2 : Vec Ideal S1x1x512 .i32) (h1 : S1x1x512.ShapeCasts S512) (h2 : S512.ShapeCasts S512x1)
    (h3 : S512x1.Broadcasts S512x1024) (hi : S512x1024.Iotas .tc 32 [1]) (hn : 1 < 32)
    (hb : FTy.bits .bf16 < FTy.bits .f32) (k : Fin 512) (q : Fin 1024) :
    (truncf (F := Ideal) .bf16 (sitofp (F := Ideal) .f32 (extui 32 (cmpi .eq (iota .tc S512x1024 32 [1] hi)
        (broadcastTo S512x1024 (shapeCast S512x1 (shapeCast S512 x2 h1) h2) h3)) hn)) hb) (ix2 k q)
      = OneHotSum.hot (x2 (ix3 (0 : Fin 1) (0 : Fin 1) k)) q.val := by
  show FloatOps.sitofp (F := Ideal) .f32 ((IntOp.cmpi .eq (iota .tc S512x1024 32 [1] hi (ix2 k q))
      (broadcastTo S512x1024 (shapeCast S512x1 (shapeCast S512 x2 h1) h2) h3 (ix2 k q))).setWidth 32) = _
  have e1 : broadcastTo S512x1024 (shapeCast S512x1 (shapeCast S512 x2 h1) h2) h3 (ix2 k q)
      = shapeCast S512x1 (shapeCast S512 x2 h1) h2 (ix2 k (0 : Fin 1)) :=
    broadcastTo_apply _ h3 _ _ (fun a => by
      match a with
      | ⟨0, _⟩ => rfl
      | ⟨1, _⟩ => rfl)
  have e2 : shapeCast S512x1 (shapeCast S512 x2 h1) h2 (ix2 k (0 : Fin 1)) = shapeCast S512 x2 h1 (ix1 k) :=
    shapeCast_apply _ h2 _ _ (by
      rw [Shape.rowMajor_val_one, Shape.rowMajor_val_two]
      show k.val = k.val * 1 + 0
      omega)
  rw [cmpi_eq_comm, iota_single_apply, e1, e2, words_apply]
  exact OneHotSum.hot_of_widened _ _

/-- The 72 augmented rows [72, 512]: rows below 64 are the channels of the block (narrowed to sixteen bits: the
    identity on the extended reals), the last 8 rows hold the sixteen-bit one. -/
theorem aug_apply (x0 : Vec Ideal S1x64x512 .f32) (h1 : S1x64x512.ShapeCasts S64x512)
    (hb : FTy.bits .bf16 < FTy.bits .f32) (hc : Shape.Concatenates [S64x512, S8x512] S72x512 0)
    (c' : Fin 72) (k : Fin 512) :
    concatenate S72x512 0 [⟨S64x512, truncf (F := Ideal) .bf16 (shapeCast S64x512 x0 h1) hb⟩,
        ⟨S8x512, broadcast S8x512 (Scalar.ofBits (F := Ideal) .bf16 0x3F80#16)⟩] hc (ix2 c' k)
      = if h : c'.val < 64 then x0 (ix3 (0 : Fin 1) (⟨c'.val, h⟩ : Fin 64) k) else Voxel.one16 := by
  by_cases h : c'.val < 64
  · rw [dif_pos h]
    refine (concatenate_pair_apply_left (0 : Fin S72x512.rank) _ _ hc (ix2 c' k) rfl
      (ix2 (⟨c'.val, h⟩ : Fin 64) k) (fun b => by
        match b with
        | ⟨0, _⟩ => rfl
        | ⟨1, _⟩ => rfl)).trans ?_
    refine (truncf_apply (φ := .f32) (ψ := .bf16) _ hb _).trans ?_
    exact shapeCast_1ab_ab_apply _ _ _ _
  · rw [dif_neg h]
    refine (concatenate_pair_apply_right (0 : Fin S72x512.rank) _ _ hc (ix2 c' k) rfl rfl
      (ix2 (⟨c'.val - 64, by omega⟩ : Fin 8) k) (fun b hb' => by
        match b, hb' with
        | ⟨0, _⟩, hb' => exact absurd rfl hb'
        | ⟨1, _⟩, _ => rfl) (by show (c'.val - 64) + 64 = c'.val; omega)).trans ?_
    rfl

/-! ### The product's operand indices -/

theorem lhs_0 (i : S2304x1024.Idx) (p : dot_S2304x512_S512x1024_S2304x1024_1_0_0_1_n_n.contr.Idx) :
    (dot_S2304x512_S512x1024_S2304x1024_1_0_0_1_n_n.lhsIdx i p 0).val = (i 0).val := by
  unfold DotDims.lhsIdx
  rw [dif_neg (show ¬(0 : Fin S2304x512.rank) ∈ dot_S2304x512_S512x1024_S2304x1024_1_0_0_1_n_n.lhsBatch by decide),
    dif_pos (show (0 : Fin S2304x512.rank) ∈ dot_S2304x512_S512x1024_S2304x1024_1_0_0_1_n_n.lhsNonContracting by decide)]
  rfl

theorem lhs_1 (i : S2304x1024.Idx) (p : dot_S2304x512_S512x1024_S2304x1024_1_0_0_1_n_n.contr.Idx) :
    (dot_S2304x512_S512x1024_S2304x1024_1_0_0_1_n_n.lhsIdx i p 1).val = (p ⟨0, by decide⟩).val :=
  dot_S2304x512_S512x1024_S2304x1024_1_0_0_1_n_n.lhsIdx_val_of_single rfl i p

theorem rhs_0 (i : S2304x1024.Idx) (p : dot_S2304x512_S512x1024_S2304x1024_1_0_0_1_n_n.contr.Idx) :
    (dot_S2304x512_S512x1024_S2304x1024_1_0_0_1_n_n.rhsIdx i p 0).val = (p ⟨0, by decide⟩).val :=
  dot_S2304x512_S512x1024_S2304x1024_1_0_0_1_n_n.rhsIdx_val_of_single rfl i p

theorem rhs_1 (i : S2304x1024.Idx) (p : dot_S2304x512_S512x1024_S2304x1024_1_0_0_1_n_n.contr.Idx) :
    (dot_S2304x512_S512x1024_S2304x1024_1_0_0_1_n_n.rhsIdx i p 1).val = (i 1).val := by
  unfold DotDims.rhsIdx
  rw [dif_neg (show ¬(1 : Fin S512x1024.rank) ∈ dot_S2304x512_S512x1024_S2304x1024_1_0_0_1_n_n.rhsBatch by decide),
    dif_pos (show (1 : Fin S512x1024.rank) ∈ dot_S2304x512_S512x1024_S2304x1024_1_0_0_1_n_n.rhsNonContracting by decide)]
  rfl

/-- The product of a [2304, 512] and a [512, 1024] array into the zero accumulator, at (r, q): the sum over the 512
    contracted positions of the operands' products. -/
theorem dot_apply (A : FVec Ideal S2304x512 .bf16) (B : FVec Ideal S512x1024 .bf16) (r : Fin 2304) (q : Fin 1024) :
    matmul (F := Ideal) dot_S2304x512_S512x1024_S2304x1024_1_0_0_1_n_n none A B
        (constant (F := Ideal) S2304x1024 .f32 0x00000000#32) (ix2 r q)
      = ∑ k : Fin 512, A (ix2 r k) * B (ix2 k q) := by
  simp only [matmul]
  rw [Ideal.matmul_constant_zero_apply,
    ← Equiv.sum_comp (contrEquiv1 dot_S2304x512_S512x1024_S2304x1024_1_0_0_1_n_n 512 rfl rfl).symm]
  refine Finset.sum_congr rfl fun k _ => ?_
  have hk := contrEquiv1_symm_val dot_S2304x512_S512x1024_S2304x1024_1_0_0_1_n_n 512 rfl rfl k
  have el : dot_S2304x512_S512x1024_S2304x1024_1_0_0_1_n_n.lhsIdx (ix2 r q)
      ((contrEquiv1 dot_S2304x512_S512x1024_S2304x1024_1_0_0_1_n_n 512 rfl rfl).symm k) = ix2 r k :=
    funext fun a => Fin.ext (by
      match a with
      | ⟨0, _⟩ => exact lhs_0 _ _
      | ⟨1, _⟩ => exact (lhs_1 _ _).trans hk)
  have er : dot_S2304x512_S512x1024_S2304x1024_1_0_0_1_n_n.rhsIdx (ix2 r q)
      ((contrEquiv1 dot_S2304x512_S512x1024_S2304x1024_1_0_0_1_n_n 512 rfl rfl).symm k) = ix2 k q :=
    funext fun a => Fin.ext (by
      match a with
      | ⟨0, _⟩ => exact (rhs_0 _ _).trans hk
      | ⟨1, _⟩ => exact rhs_1 _ _)
  rw [el, er]

/-- The tile payload: the accumulator plus the tile's sum, at every (x, c', q). -/
theorem pay50_apply (x0 : Vec Ideal S1x64x512 .f32) (x1 x2 : Vec Ideal S1x1x512 .i32) (xs : Vec Ideal S32x72x1024 .f32)
    (x : Fin 32) (c' : Fin 72) (q : Fin 1024) :
    k0_pay50 (F := Ideal) x0 x1 x2 xs (ix3 x c' q) = xs (ix3 x c' q) + tileSum x0 x1 x2 x c' q := by
  unfold k0_pay50
  refine (addf_apply _ _ _).trans ?_
  refine congrArg (fun t : EReal => xs (ix3 x c' q) + t) ?_
  refine (shapeCast_apply _ _ _ (ix2 (⟨72 * x.val + c'.val, by omega⟩ : Fin 2304) q) (by
    rw [Shape.rowMajor_val_two, Shape.rowMajor_val_three]
    show (72 * x.val + c'.val) * 1024 + q.val = (x.val * 72 + c'.val) * 1024 + q.val
    omega)).trans ?_
  refine (dot_apply _ _ _ _).trans ?_
  unfold tileSum
  refine Finset.sum_congr rfl fun k _ => ?_
  refine congrArg₂ (fun a b : EReal => a * b) ?_ (yzhot_apply x2 _ _ _ _ _ _ k q)
  refine (shapeCast_apply _ _ _ (ix3 x c' k) (by
    rw [Shape.rowMajor_val_two, Shape.rowMajor_val_three]
    show (x.val * 72 + c'.val) * 512 + k.val = (72 * x.val + c'.val) * 512 + k.val
    omega)).trans ?_
  refine (mulf_apply _ _ _).trans ?_
  refine congrArg₂ (fun a b : EReal => a * b) ?_ ?_
  · refine (broadcastTo_apply _ _ _ (ix3 x (0 : Fin 1) k) (fun a => by
      match a with
      | ⟨0, _⟩ => rfl
      | ⟨1, _⟩ => rfl
      | ⟨2, _⟩ => rfl)).trans ?_
    refine (shapeCast_apply _ _ _ (ix2 x k) (by
      rw [Shape.rowMajor_val_two, Shape.rowMajor_val_three]
      show x.val * 512 + k.val = (x.val * 1 + 0) * 512 + k.val
      omega)).trans ?_
    exact xhot_apply x1 _ _ _ _ _ _ x k
  · refine (broadcastTo_apply _ _ _ (ix3 (0 : Fin 1) c' k) (fun a => by
      match a with
      | ⟨0, _⟩ => rfl
      | ⟨1, _⟩ => rfl
      | ⟨2, _⟩ => rfl)).trans ?_
    refine (shapeCast_ab_1ab_apply _ _ _ _ _).trans ?_
    exact aug_apply x0 _ _ _ c' k

end Cert.KernelIdeal.Hand

end
-- ==== Proof.KernelPieces.lean ====
/-
  What each of the three control cases of the voxel kernel leaves behind, as values.

  The kernel keeps an accumulator of 32 slabs, each of 72 rows by 1024 columns, between the tiles of a batch. At the
  first tile of a batch the accumulator is set to zero and the tile's update of that zero accumulator is stored; at a
  middle tile the update of what the tile before left is stored; at the last tile the same update is stored and then,
  for each slab x, the slab is read back, its first 64 rows are divided row by row by the larger of its row 64 and one,
  and the quotient is stored into columns [1024 x, 1024 x + 1024) of the output block.

  Here the update is the function k0_pay50 of the three input blocks and the old accumulator, the zero accumulator is
  k0_pay49, and the quotient of one slab is k0_pay3 of that slab. The statements:
    sout_A, sout_B, sout_C : the accumulator after a first, a middle and a last tile;
    out_C                  : entry (0, ch, 1024 x + q) of the output block after a last tile is entry (0, ch, q) of the
                             quotient of slab x of the updated accumulator.
  The output block is first shown to be ONE function of its index (outOf): the 32 stored pieces each agree with that
  function on their own columns, and together they cover the block, so the order of the stores does not matter.
-/
import proofs.«126858_j17489106830002_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx

variable {F : FTy → Type} [FloatOps F]

/-- The offsets (0, 0, 0) are the constant-zero offsets. -/
theorem zero3 : (![0, 0, 0] : Fin 3 → Nat) = fun _ => 0 := funext fun a => by fin_cases a <;> rfl

/-! ## The accumulator after each kind of tile -/

/-- First tile of a batch: the accumulator is set to zero, read back, updated by the tile and stored whole; what is left
    is the update of the zero accumulator. -/
theorem sout_A (c : Dev nD) (i : grid0.Coords) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x64x32768 .f32) (harg5 : arg5.IsWhole) (arg6 : Memref sig .tc .vmem S32x72x1024 .f32) (harg6 : arg6.IsWhole) (hc0 : cond0_0 i) (hc1 : ¬cond0_1 i) (x0 : Vec F S1x64x512 .f32) (x1 x2 : Vec F S1x1x512 .i32) :
    sout0_A_0 c i arg2 harg2 arg3 harg3 arg4 harg4 arg5 harg5 arg6 harg6 hc0 hc1 x0 x1 x2 = k0_pay50 x0 x1 x2 k0_pay49 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x72x1024) zero3, View.readCov_unit_zero (S := S32x72x1024) _ zero3]
  simp only [View.readAt_eq_ld, harg2.read_unread, harg3.read_unread, harg4.read_unread, harg6.read_unread,
    View.ld_unit_zero (S := S1x64x512) zero3, View.ld_unit_zero (S := S1x1x512) zero3,
    View.ld_unit_zero (S := S32x72x1024) zero3, k0_pay1, shapeCast_self]

/-- Middle tile: the accumulator the tile before left is updated by the tile and stored whole. -/
theorem sout_B (c : Dev nD) (i : grid0.Coords) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x64x32768 .f32) (harg5 : arg5.IsWhole) (arg6 : Memref sig .tc .vmem S32x72x1024 .f32) (harg6 : arg6.IsWhole) (hc0 : ¬cond0_0 i) (hc1 : ¬cond0_1 i) (x0 : Vec F S1x64x512 .f32) (x1 x2 : Vec F S1x1x512 .i32) (xs0 : Vec F S32x72x1024 .f32) :
    sout0_B_0 c i arg2 harg2 arg3 harg3 arg4 harg4 arg5 harg5 arg6 harg6 hc0 hc1 x0 x1 x2 xs0 = k0_pay50 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zero3]
  simp only [View.readAt_eq_ld, harg2.read_unread, harg3.read_unread, harg4.read_unread, harg6.read_unread,
    View.ld_unit_zero (S := S1x64x512) zero3, View.ld_unit_zero (S := S1x1x512) zero3,
    View.ld_unit_zero (S := S32x72x1024) zero3, k0_pay1, shapeCast_self]

/-- Last tile: the same whole store of the updated accumulator (the divisions that follow only read it). -/
theorem sout_C (c : Dev nD) (i : grid0.Coords) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x64x32768 .f32) (harg5 : arg5.IsWhole) (arg6 : Memref sig .tc .vmem S32x72x1024 .f32) (harg6 : arg6.IsWhole) (hc0 : ¬cond0_0 i) (hc1 : cond0_1 i) (x0 : Vec F S1x64x512 .f32) (x1 x2 : Vec F S1x1x512 .i32) (xs0 : Vec F S32x72x1024 .f32) :
    sout0_C_0 c i arg2 harg2 arg3 harg3 arg4 harg4 arg5 harg5 arg6 harg6 hc0 hc1 x0 x1 x2 xs0 = k0_pay50 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero3]
  simp only [View.readAt_eq_ld, harg2.read_unread, harg3.read_unread, harg4.read_unread, harg6.read_unread,
    View.ld_unit_zero (S := S1x64x512) zero3, View.ld_unit_zero (S := S1x1x512) zero3,
    View.ld_unit_zero (S := S32x72x1024) zero3, k0_pay1, shapeCast_self]

/-! ## Slabs of the accumulator and columns of the output block -/

/-- Slab x of an accumulator, as the [1,72,1024] value a load of it gives. -/
def slabOf (A : Vec F S32x72x1024 .f32) (x : Fin 32) : Vec F S1x72x1024 .f32 := fun j => A (ix3 x (j 1) (j 2))
/-- Index (0, c, x*1024 + q) of the output block. -/
def slabIdx (x : Fin 32) (c : Fin 64) (q : Fin 1024) : S1x64x32768.Idx := ix3 (0 : Fin 1) c (⟨x.val * 1024 + q.val, by omega⟩ : Fin 32768)

/-- The output block as ONE function of its index: entry (0, ch, v) is entry (0, ch, v % 1024) of the quotient of slab
    v / 1024. -/
def outOf (A : Vec F S32x72x1024 .f32) : Vec F S1x64x32768 .f32 := fun y =>
  k0_pay3 (slabOf A ⟨(y 2).val / 1024, by have h : (y 2).val < 32768 := (y 2).isLt; omega⟩)
    (ix3 (0 : Fin 1) (y 1 : Fin 64) (⟨(y 2).val % 1024, Nat.mod_lt _ (by norm_num)⟩ : Fin 1024))

/-- A one-row window of the accumulator starts at a row below 32. -/
theorem row_lt {o : Nat} (inb : ∀ a, (![o, 0, 0] : Fin 3 → Nat) a + S1x72x1024.size a ≤ S32x72x1024.size a) : o < 32 := by
  have h : o + 1 ≤ 32 := inb 0
  omega

/-- A window of 1024 columns of the output block starts at a column whose quotient by 1024 is below 32. -/
theorem col_lt {o : Nat} (inb : ∀ a, (![0, 0, o] : Fin 3 → Nat) a + (![1, 64, 1024] : Fin 3 → Nat) a ≤ S1x64x32768.size a) :
    o / 1024 < 32 := by
  have h : o + 1024 ≤ 32768 := inb 2
  omega

/-- Reading row o of an accumulator (all 72 x 1024 of it) gives slab o: the window's index (0, r, k) sits at (o, r, k). -/
theorem ld_slab (A : Vec F S32x72x1024 .f32) (o : Nat)
    (inb : ∀ a, (![o, 0, 0] : Fin 3 → Nat) a + S1x72x1024.size a ≤ S32x72x1024.size a) :
    View.ld A (Rect.unit (s := S32x72x1024) ![o, 0, 0] S1x72x1024.size inb) = slabOf A ⟨o, row_lt inb⟩ := by
  funext j
  unfold slabOf
  show A _ = A _
  congr 1
  funext a
  match a with
  | ⟨0, _⟩ => exact Fin.ext (by have h : (j 0).val < 1 := (j 0).isLt; show o + 1 * (j 0).val = o; omega)
  | ⟨1, _⟩ => exact Fin.ext (by show 0 + 1 * (j 1).val = (j 1).val; omega)
  | ⟨2, _⟩ => exact Fin.ext (by show 0 + 1 * (j 2).val = (j 2).val; omega)

/-- A piece stored at columns [o, o + 1024), o a multiple of 1024, whose payload is the quotient of slab o / 1024, agrees
    with the one function of the block index: its entry (0, r, k) sits at column o + k, whose quotient by 1024 is
    o / 1024 and whose remainder is k. -/
theorem piece_ok (A : Vec F S32x72x1024 .f32) (o : Nat) (hd : o % 1024 = 0)
    (inb : ∀ a, (![0, 0, o] : Fin 3 → Nat) a + (![1, 64, 1024] : Fin 3 → Nat) a ≤ S1x64x32768.size a)
    (P : FVec F S1x64x1024 .f32) (hP : P = k0_pay3 (slabOf A ⟨o / 1024, col_lt inb⟩))
    (x : (Rect.unit (s := S1x64x32768) ![0, 0, o] ![1, 64, 1024] inb).shape.Idx) :
    P x = outOf A ((Rect.unit (s := S1x64x32768) ![0, 0, o] ![1, 64, 1024] inb).emb x) := by
  subst hP
  unfold outOf
  have e2 : (((Rect.unit (s := S1x64x32768) ![0, 0, o] ![1, 64, 1024] inb).emb x 2 : Fin _) : Nat) = o + 1 * (x 2).val := rfl
  have e1 : (((Rect.unit (s := S1x64x32768) ![0, 0, o] ![1, 64, 1024] inb).emb x 1 : Fin _) : Nat) = 0 + 1 * (x 1).val := rfl
  have hx2 : (x 2).val < 1024 := (x 2).isLt
  have hx0 : (x 0).val < 1 := (x 0).isLt
  refine congrArg₂ (fun s j => k0_pay3 (slabOf A s) j) (Fin.ext ?_) (funext fun a => ?_)
  · show o / 1024 = _ / 1024
    rw [e2]; omega
  · match a with
    | ⟨0, _⟩ => exact Fin.ext (by show (x 0).val = 0; omega)
    | ⟨1, _⟩ => exact Fin.ext (by show (x 1).val = _; rw [e1]; omega)
    | ⟨2, _⟩ => exact Fin.ext (by show (x 2).val = _ % 1024; rw [e2]; omega)

/-! ## The last tile: what the slab loads read -/

/-- When the slabs are read back at the last tile the accumulator holds the update just stored. -/
theorem HS_canon (c : Dev nD) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg6 : Memref sig .tc .vmem S32x72x1024 .f32) (harg6 : arg6.IsWhole) (x0 : Vec F S1x64x512 .f32) (x1 x2 : Vec F S1x1x512 .i32) (xs0 : Vec F S32x72x1024 .f32) :
    View.canon (kernelRun0_C.sl.HS0_1 c arg2 harg2 arg3 harg3 arg4 harg4 arg6 harg6 x0 x1 x2 xs0) = k0_pay50 x0 x1 x2 xs0 := by
  sl_unfold_words
  rw [View.canon_unit_zero zero3]
  simp only [View.readAt_eq_ld, harg2.read_unread, harg3.read_unread, harg4.read_unread, harg6.read_unread,
    View.ld_unit_zero (S := S1x64x512) zero3, View.ld_unit_zero (S := S1x1x512) zero3,
    View.ld_unit_zero (S := S32x72x1024) zero3, k0_pay1, shapeCast_self]

/-- That one store covers the whole accumulator. -/
theorem HS_cover (c : Dev nD) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg6 : Memref sig .tc .vmem S32x72x1024 .f32) (harg6 : arg6.IsWhole) (x0 : Vec F S1x64x512 .f32) (x1 x2 : Vec F S1x1x512 .i32) (xs0 : Vec F S32x72x1024 .f32) (y : S32x72x1024.Idx) :
    ∃ p ∈ (kernelRun0_C.sl.HS0_1 c arg2 harg2 arg3 harg3 arg4 harg4 arg6 harg6 x0 x1 x2 xs0), y ∈ p.1.set := by
  sl_unfold_words
  refine ⟨_, List.mem_singleton_self _, ?_⟩
  exact View.mem_set_unit_zero (S := S32x72x1024) zero3 inb_S32x72x1024_S32x72x1024_0_0_0 y

/-- So a load of row o of the accumulator at the last tile reads slab o of the update. -/
theorem load_slab (c : Dev nD) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg6 : Memref sig .tc .vmem S32x72x1024 .f32) (harg6 : arg6.IsWhole) (x0 : Vec F S1x64x512 .f32) (x1 x2 : Vec F S1x1x512 .i32) (xs0 : Vec F S32x72x1024 .f32) (o : Nat)
    (inb : ∀ a, (![o, 0, 0] : Fin 3 → Nat) a + S1x72x1024.size a ≤ S32x72x1024.size a) :
    arg6.view.readCov (kernelRun0_C.sl.HS0_1 c arg2 harg2 arg3 harg3 arg4 harg4 arg6 harg6 x0 x1 x2 xs0) (Rect.unit (s := S32x72x1024) ![o, 0, 0] S1x72x1024.size inb).toLoadRect
      = slabOf (k0_pay50 x0 x1 x2 xs0) ⟨o, row_lt inb⟩ := by
  rw [View.readCov_eq_canon_ld _ _ _ (HS_cover c arg2 harg2 arg3 harg3 arg4 harg4 arg6 harg6 x0 x1 x2 xs0), HS_canon c arg2 harg2 arg3 harg3 arg4 harg4 arg6 harg6 x0 x1 x2 xs0]
  exact ld_slab _ o inb

/-! ## The last tile: the output block -/

/-- The 32 stores of the last tile leave the output block at the one function of its index. Each stored piece sits at
    columns [1024 x, 1024 x + 1024) and is the quotient of what a load of row x of the accumulator read (for some slabs
    the quotient is written in two or three steps, the same arithmetic), that is of slab x of the update; the pieces
    cover the block. -/
theorem out_C_fun (c : Dev nD) (i : grid0.Coords) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x64x32768 .f32) (harg5 : arg5.IsWhole) (arg6 : Memref sig .tc .vmem S32x72x1024 .f32) (harg6 : arg6.IsWhole) (hc0 : ¬cond0_0 i) (hc1 : cond0_1 i) (x0 : Vec F S1x64x512 .f32) (x1 x2 : Vec F S1x1x512 .i32) (xs0 : Vec F S32x72x1024 .f32) :
    out0_C_3 c i arg2 harg2 arg3 harg3 arg4 harg4 arg5 harg5 arg6 harg6 hc0 hc1 x0 x1 x2 xs0 = outOf (k0_pay50 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  funext y
  refine View.canon_apply_of_pieces (outOf (k0_pay50 x0 x1 x2 xs0)) _ ?_ y (cover0_C_3 c i arg2 harg2 arg3 harg3 arg4 harg4 arg5 harg5 arg6 harg6 hc0 hc1 x0 x1 x2 xs0 y)
  unfold kernelRun0_C
  dsimp only
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    dsimp only
    refine piece_ok (k0_pay50 x0 x1 x2 xs0) _ rfl _ _ ?_
    simp only [kernelRun0_C.sl.r_1, kernelRun0_C.sl.r_2, kernelRun0_C.sl.r_3, kernelRun0_C.sl.r_4, kernelRun0_C.sl.r_5, kernelRun0_C.sl.r_6,
      kernelRun0_C.sl.r_7, kernelRun0_C.sl.r_8, kernelRun0_C.sl.r_9, kernelRun0_C.sl.r_10, kernelRun0_C.sl.r_11, kernelRun0_C.sl.r_12,
      kernelRun0_C.sl.cst_161,
      kernelRun0_C.sl.v42, kernelRun0_C.sl.v53, kernelRun0_C.sl.v64, kernelRun0_C.sl.v75, kernelRun0_C.sl.v86, kernelRun0_C.sl.v97,
      kernelRun0_C.sl.v108, kernelRun0_C.sl.v119, kernelRun0_C.sl.v130, kernelRun0_C.sl.v141, kernelRun0_C.sl.v152, kernelRun0_C.sl.v163,
      kernelRun0_C.sl.v174, kernelRun0_C.sl.v185, kernelRun0_C.sl.v196, kernelRun0_C.sl.v207, kernelRun0_C.sl.v218, kernelRun0_C.sl.v229,
      kernelRun0_C.sl.v240, kernelRun0_C.sl.v251, kernelRun0_C.sl.v262, kernelRun0_C.sl.v273, kernelRun0_C.sl.v284, kernelRun0_C.sl.v295,
      kernelRun0_C.sl.v306, kernelRun0_C.sl.v317, kernelRun0_C.sl.v328, kernelRun0_C.sl.v339, kernelRun0_C.sl.v350, kernelRun0_C.sl.v361,
      kernelRun0_C.sl.v372, kernelRun0_C.sl.v383,
      load_slab c arg2 harg2 arg3 harg3 arg4 harg4 arg6 harg6 x0 x1 x2 xs0]
    try rfl

/-- Entry (0, ch, 1024 x + q) of the output block after a last tile: entry (0, ch, q) of the quotient of slab x of the
    updated accumulator. -/
theorem out_C (c : Dev nD) (i : grid0.Coords) (arg2 : Memref sig .tc .vmem S1x64x512 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x64x32768 .f32) (harg5 : arg5.IsWhole) (arg6 : Memref sig .tc .vmem S32x72x1024 .f32) (harg6 : arg6.IsWhole) (hc0 : ¬cond0_0 i) (hc1 : cond0_1 i) (x0 : Vec F S1x64x512 .f32) (x1 x2 : Vec F S1x1x512 .i32) (xs0 : Vec F S32x72x1024 .f32) (x : Fin 32) (ch : Fin 64) (q : Fin 1024) :
    out0_C_3 c i arg2 harg2 arg3 harg3 arg4 harg4 arg5 harg5 arg6 harg6 hc0 hc1 x0 x1 x2 xs0 (slabIdx x ch q) = k0_pay3 (slabOf (k0_pay50 x0 x1 x2 xs0) x) (ix3 (0 : Fin 1) ch q) := by
  rw [out_C_fun c i arg2 harg2 arg3 harg3 arg4 harg4 arg5 harg5 arg6 harg6 hc0 hc1 x0 x1 x2 xs0]
  unfold outOf
  have hx := x.isLt
  have hq := q.isLt
  refine congrArg₂ (fun s j => k0_pay3 (slabOf (k0_pay50 x0 x1 x2 xs0) s) j) (Fin.ext ?_) (funext fun a => ?_)
  · show (x.val * 1024 + q.val) / 1024 = x.val
    omega
  · match a with
    | ⟨0, _⟩ => rfl
    | ⟨1, _⟩ => rfl
    | ⟨2, _⟩ => exact Fin.ext (by show (x.val * 1024 + q.val) % 1024 = q.val; omega)

end Cert.KernelIdeal.Hand

end
-- ==== Proof.KernelHost.lean ====
/-
  What the host operations around the kernel's region compute, at exact arithmetic, and what the region's three
  input windows hold at a grid point.

  Before the region: the coordinate words (the coordinates times 32, clipped to [0, 31], rounded to even, converted
  to 32-bit words); the features padded with 352 zero points to 100352 = 196 * 512 points per batch (the padding
  value is the integer 0 converted to a float, which is 0); the x words (row 0 of the words) padded with the word
  -1, and the words y * 32 + z (rows 1 and 2) padded with the word 0, both reshaped to [8,1,100352]. A pad read at a
  point below 100000 is its operand there and the padding value from there on; the reshapes keep the row-major
  position; a slice of one row reads that row.

  The region's grid has 8 * 196 points; at point t window w's block is block (t / 196, 0, t % 196) of its array,
  so entry k of the block's point axis is padded point (t % 196) * 512 + k of batch t / 196: the blocks are the
  tiles of the padded point axis the specification's featPad, xPad and yzPad name.

  After the region: one reshape of the output array to [8,64,32,32,32]; nothing after the region writes the
  coordinate words, so they end as the operations before the region left them.
-/
import proofs.«126858_j17489106830002_1_alg».proof.Proof.Gen.KernelIdeal.Frame
import proofs.«126858_j17489106830002_1_alg».proof.Proof.VoxelSpec
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.Lib.Tactic

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The features as launched. -/
abbrev feat (c : Dev nD) : FVec Ideal Voxel.SFeat .f32 := m ((c : Thread nD τ).loc main_arg0)
/-- The coordinate words of the launched coordinates. -/
abbrev vc (c : Dev nD) : IVec Voxel.SCoord 32 := Voxel.words Facts₀.bcast_S_S8x3x100000 (m ((c : Thread nD τ).loc main_arg1))

/-- The x words as a [8,100000] array: row 0 of the coordinate words. -/
def xw (v : IVec S8x3x100000 32) : IVec S8x100000 32 :=
  shapeCast S8x100000 (extractStridedSlice S8x1x100000 ![0, 0, 0] v Facts₀.slices_S8x3x100000_S8x1x100000_0_0_0)
    Facts₀.shapeCasts_S8x1x100000_S8x100000

/-- The words y * 32 + z as a [8,100000] array. -/
def yzw (v : IVec S8x3x100000 32) : IVec S8x100000 32 :=
  addi (muli
      (shapeCast S8x100000 (extractStridedSlice S8x1x100000 ![0, 1, 0] v Facts₀.slices_S8x3x100000_S8x1x100000_0_1_0)
        Facts₀.shapeCasts_S8x1x100000_S8x100000)
      (broadcastInDim S8x100000 ![] Facts₀.bcast_S_S8x100000 (constantI S_ 32 32#32)))
    (shapeCast S8x100000 (extractStridedSlice S8x1x100000 ![0, 2, 0] v Facts₀.slices_S8x3x100000_S8x1x100000_0_2_0)
      Facts₀.shapeCasts_S8x1x100000_S8x100000)

/-- A [8,100000] array of words padded to 100352 points with the word p, as a [8,1,100352] array. -/
def padw (x : IVec S8x100000 32) (p : BitVec 32) : IVec S8x1x100352 32 :=
  shapeCast S8x1x100352 (pad S8x100352 ![0, 0] ![0, 352] ![0, 0] x (constantI S_ 32 p)
    Facts₀.pads_S8x100000_S8x100352_000_03520 Facts₀.h_S_) Facts₀.shapeCasts_S8x100352_S8x1x100352

theorem V_v4 (c : Dev nD) : (V m c main_v4 : IVec S8x3x100000 32) = vc m c := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

theorem V_v14 (c : Dev nD) : (V m c main_v14 : FVec Ideal S8x64x100352 .f32) =
    pad S8x64x100352 ![0, 0, 0] ![0, 0, 352] ![0, 0, 0] (feat m c)
      (sitofp (F := Ideal) .f32 (constantI S_ 32 0#32)) Facts₀.pads_S8x64x100000_S8x64x100352_000_000_03520 Facts₀.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

theorem V_v17 (c : Dev nD) : (V m c main_v17 : IVec S8x1x100352 32) = padw (xw (vc m c)) 4294967295#32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  rfl

set_option maxHeartbeats 2000000 in
theorem V_v18 (c : Dev nD) : (V m c main_v18 : IVec S8x1x100352 32) = padw (yzw (vc m c)) 0#32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-! ## The padded arrays at an index -/

/-- The integer zero converted to a float is zero. -/
theorem padValue_zero (i : S_.Idx) : (sitofp (F := Ideal) .f32 (constantI S_ 32 0#32) : FVec Ideal S_ .f32) i = 0 := by
  show ((((0#32 : BitVec 32).toInt : ℤ) : ℝ) : EReal) = 0
  simp

/-- The features padded along the point axis, at an index: the feature inside the first 100000 points, the padding
    value from there on. -/
theorem pad3_apply (x : FVec Ideal S8x64x100000 .f32) (v : FVec Ideal S_ .f32) (b : Fin 8) (ch : Fin 64) (n : Fin 100352) :
    pad S8x64x100352 ![0, 0, 0] ![0, 0, 352] ![0, 0, 0] x v Facts₀.pads_S8x64x100000_S8x64x100352_000_000_03520 Facts₀.h_S_
        (ix3 b ch n)
      = if h : n.val < 100000 then x (ix3 b ch ⟨n.val, h⟩) else v (Shape.Idx.first Facts₀.h_S_) := by
  by_cases h : n.val < 100000
  · rw [dif_pos h]
    exact pad_apply_of_inside _ _ _ x v _ _ (ix3 b ch n) (ix3 b ch ⟨n.val, h⟩) (fun a => match a with
      | ⟨0, _⟩ => by show b.val = 0 + b.val * (0 + 1); omega
      | ⟨1, _⟩ => by show ch.val = 0 + ch.val * (0 + 1); omega
      | ⟨2, _⟩ => by show n.val = 0 + n.val * (0 + 1); omega)
  · rw [dif_neg h]
    exact pad_apply_of_not_inside _ _ _ x v _ _ (ix3 b ch n) (2 : Fin 3) (by
      show ¬(0 ≤ n.val ∧ (n.val - 0) % (0 + 1) = 0 ∧ (n.val - 0) / (0 + 1) < 100000)
      omega)

/-- A [8,100000] array of words padded along the point axis, at an index. -/
theorem pad2_apply (x : IVec S8x100000 32) (v : IVec S_ 32) (b : Fin 8) (n : Fin 100352) :
    pad S8x100352 ![0, 0] ![0, 352] ![0, 0] x v Facts₀.pads_S8x100000_S8x100352_000_03520 Facts₀.h_S_ (ix2 b n)
      = if h : n.val < 100000 then x (ix2 b ⟨n.val, h⟩) else v (Shape.Idx.first Facts₀.h_S_) := by
  by_cases h : n.val < 100000
  · rw [dif_pos h]
    exact pad_apply_of_inside _ _ _ x v _ _ (ix2 b n) (ix2 b ⟨n.val, h⟩) (fun a => match a with
      | ⟨0, _⟩ => by show b.val = 0 + b.val * (0 + 1); omega
      | ⟨1, _⟩ => by show n.val = 0 + n.val * (0 + 1); omega)
  · rw [dif_neg h]
    exact pad_apply_of_not_inside _ _ _ x v _ _ (ix2 b n) (1 : Fin 2) (by
      show ¬(0 ≤ n.val ∧ (n.val - 0) % (0 + 1) = 0 ∧ (n.val - 0) / (0 + 1) < 100000)
      omega)

theorem padw_apply (x : IVec S8x100000 32) (p : BitVec 32) (b : Fin 8) (n : Fin 100352) :
    padw x p (ix3 b (0 : Fin 1) n) = if h : n.val < 100000 then x (ix2 b ⟨n.val, h⟩) else p := by
  unfold padw
  refine (shapeCast_apply _ _ (ix3 b (0 : Fin 1) n) (ix2 b n) (by
    rw [Shape.rowMajor_val_two, Shape.rowMajor_val_three]
    show b.val * 100352 + n.val = (b.val * 1 + 0) * 100352 + n.val
    omega)).trans ?_
  exact pad2_apply x (constantI S_ 32 p) b n

theorem xw_apply (v : IVec S8x3x100000 32) (b : Fin 8) (n : Fin 100000) :
    xw v (ix2 b n) = v (ix3 b (0 : Fin 3) n) := by
  unfold xw
  refine (shapeCast_apply _ _ (ix2 b n) (ix3 b (0 : Fin 1) n) (by
    rw [Shape.rowMajor_val_two, Shape.rowMajor_val_three]
    show (b.val * 1 + 0) * 100000 + n.val = b.val * 100000 + n.val
    omega)).trans ?_
  exact extractStridedSlice_apply _ v _ (ix3 b (0 : Fin 1) n) (ix3 b (0 : Fin 3) n) (fun a => match a with
    | ⟨0, _⟩ => by show b.val = 0 + b.val; omega
    | ⟨1, _⟩ => by show 0 = 0 + 0; omega
    | ⟨2, _⟩ => by show n.val = 0 + n.val; omega)

theorem slice_apply1 (v : IVec S8x3x100000 32) (b : Fin 8) (n : Fin 100000) :
    shapeCast S8x100000 (extractStridedSlice S8x1x100000 ![0, 1, 0] v Facts₀.slices_S8x3x100000_S8x1x100000_0_1_0)
        Facts₀.shapeCasts_S8x1x100000_S8x100000 (ix2 b n) = v (ix3 b (1 : Fin 3) n) := by
  refine (shapeCast_apply _ _ (ix2 b n) (ix3 b (0 : Fin 1) n) (by
    rw [Shape.rowMajor_val_two, Shape.rowMajor_val_three]
    show (b.val * 1 + 0) * 100000 + n.val = b.val * 100000 + n.val
    omega)).trans ?_
  exact extractStridedSlice_apply _ v _ (ix3 b (0 : Fin 1) n) (ix3 b (1 : Fin 3) n) (fun a => match a with
    | ⟨0, _⟩ => by show b.val = 0 + b.val; omega
    | ⟨1, _⟩ => by show 1 = 1 + 0; omega
    | ⟨2, _⟩ => by show n.val = 0 + n.val; omega)

theorem slice_apply2 (v : IVec S8x3x100000 32) (b : Fin 8) (n : Fin 100000) :
    shapeCast S8x100000 (extractStridedSlice S8x1x100000 ![0, 2, 0] v Facts₀.slices_S8x3x100000_S8x1x100000_0_2_0)
        Facts₀.shapeCasts_S8x1x100000_S8x100000 (ix2 b n) = v (ix3 b (2 : Fin 3) n) := by
  refine (shapeCast_apply _ _ (ix2 b n) (ix3 b (0 : Fin 1) n) (by
    rw [Shape.rowMajor_val_two, Shape.rowMajor_val_three]
    show (b.val * 1 + 0) * 100000 + n.val = b.val * 100000 + n.val
    omega)).trans ?_
  exact extractStridedSlice_apply _ v _ (ix3 b (0 : Fin 1) n) (ix3 b (2 : Fin 3) n) (fun a => match a with
    | ⟨0, _⟩ => by show b.val = 0 + b.val; omega
    | ⟨1, _⟩ => by show 2 = 2 + 0; omega
    | ⟨2, _⟩ => by show n.val = 0 + n.val; omega)

theorem yzw_apply (v : IVec S8x3x100000 32) (b : Fin 8) (n : Fin 100000) :
    yzw v (ix2 b n) = v (ix3 b (1 : Fin 3) n) * 32#32 + v (ix3 b (2 : Fin 3) n) := by
  unfold yzw
  show shapeCast S8x100000 (extractStridedSlice S8x1x100000 ![0, 1, 0] v Facts₀.slices_S8x3x100000_S8x1x100000_0_1_0)
        Facts₀.shapeCasts_S8x1x100000_S8x100000 (ix2 b n) * 32#32
      + shapeCast S8x100000 (extractStridedSlice S8x1x100000 ![0, 2, 0] v Facts₀.slices_S8x3x100000_S8x1x100000_0_2_0)
        Facts₀.shapeCasts_S8x1x100000_S8x100000 (ix2 b n) = _
  rw [slice_apply1, slice_apply2]

/-! ## The windows' blocks at a grid point -/

/-- Window 0's block at a point: a [1,64,512] tile of the padded features. -/
abbrev blk0 (c : Dev nD) (t : Fin cfg0.N) : Vec Ideal S1x64x512 .f32 := iblk m c 0 t
/-- Window 1's block at a point: a [1,1,512] tile of the padded x words. -/
abbrev blk1 (c : Dev nD) (t : Fin cfg0.N) : Vec Ideal S1x1x512 .i32 := iblk m c 1 t
/-- Window 2's block at a point: a [1,1,512] tile of the padded words y * 32 + z. -/
abbrev blk2 (c : Dev nD) (t : Fin cfg0.N) : Vec Ideal S1x1x512 .i32 := iblk m c 2 t

/-- The grid has 8 * 196 points; point t works on batch t / 196. -/
theorem batch_lt (t : Fin cfg0.N) : t.val / 196 < 8 := by
  have h : t.val < 1568 := lt_of_lt_of_eq t.isLt (show cfg0.N = 1568 from N_0)
  omega

/-- Point t works on tile t % 196 of 512 points: the padded points tile * 512 + k. -/
theorem point_lt (t : Fin cfg0.N) (k : Fin 512) : t.val % 196 * 512 + k.val < 100352 := by
  have h := Nat.mod_lt t.val (show 0 < 196 by decide)
  have hk := k.isLt
  omega

/-- The index maps of the three input windows at point t: block (t / 196, 0, t % 196). -/
theorem index0 : ∀ t : Fin cfg0.N, win0_0.index t 0 = t.val / 196 ∧ win0_0.index t 1 = 0 ∧ win0_0.index t 2 = t.val % 196 :=
  (by decide +kernel : ∀ t : Fin grid0.N, win0_0.index t 0 = t.val / 196 ∧ win0_0.index t 1 = 0 ∧ win0_0.index t 2 = t.val % 196)
theorem index1 : ∀ t : Fin cfg0.N, win0_1.index t 0 = t.val / 196 ∧ win0_1.index t 1 = 0 ∧ win0_1.index t 2 = t.val % 196 :=
  (by decide +kernel : ∀ t : Fin grid0.N, win0_1.index t 0 = t.val / 196 ∧ win0_1.index t 1 = 0 ∧ win0_1.index t 2 = t.val % 196)
theorem index2 : ∀ t : Fin cfg0.N, win0_2.index t 0 = t.val / 196 ∧ win0_2.index t 1 = 0 ∧ win0_2.index t 2 = t.val % 196 :=
  (by decide +kernel : ∀ t : Fin grid0.N, win0_2.index t 0 = t.val / 196 ∧ win0_2.index t 1 = 0 ∧ win0_2.index t 2 = t.val % 196)

/-- Window 0's block reads its array at (batch, channel, tile * 512 + k). -/
theorem blk0_read (c : Dev nD) (t : Fin cfg0.N) (ch : Fin 64) (k : Fin 512) :
    blk0 m c t (ix3 (0 : Fin 1) ch k)
      = (V m c main_v14 : FVec Ideal S8x64x100352 .f32) (ix3 ⟨t.val / 196, batch_lt t⟩ ch ⟨t.val % 196 * 512 + k.val, point_lt t k⟩) := by
  unfold blk0 iblk
  rw [View.read_apply]
  show V m c main_v14 _ = V m c main_v14 _
  congr 1
  funext a
  apply Fin.ext
  match a with
  | ⟨0, _⟩ => show win0_0.index t 0 * 1 + 1 * 0 = t.val / 196; rw [(index0 t).1]; omega
  | ⟨1, _⟩ => show win0_0.index t 1 * 64 + 1 * ch.val = ch.val; rw [(index0 t).2.1]; omega
  | ⟨2, _⟩ => show win0_0.index t 2 * 512 + 1 * k.val = t.val % 196 * 512 + k.val; rw [(index0 t).2.2]; omega

theorem blk1_read (c : Dev nD) (t : Fin cfg0.N) (k : Fin 512) :
    blk1 m c t (ix3 (0 : Fin 1) (0 : Fin 1) k)
      = (V m c main_v17 : IVec S8x1x100352 32) (ix3 ⟨t.val / 196, batch_lt t⟩ (0 : Fin 1) ⟨t.val % 196 * 512 + k.val, point_lt t k⟩) := by
  unfold blk1 iblk
  rw [View.read_apply]
  show V m c main_v17 _ = V m c main_v17 _
  congr 1
  funext a
  apply Fin.ext
  match a with
  | ⟨0, _⟩ => show win0_1.index t 0 * 1 + 1 * 0 = t.val / 196; rw [(index1 t).1]; omega
  | ⟨1, _⟩ => show win0_1.index t 1 * 1 + 1 * 0 = 0; rw [(index1 t).2.1]
  | ⟨2, _⟩ => show win0_1.index t 2 * 512 + 1 * k.val = t.val % 196 * 512 + k.val; rw [(index1 t).2.2]; omega

theorem blk2_read (c : Dev nD) (t : Fin cfg0.N) (k : Fin 512) :
    blk2 m c t (ix3 (0 : Fin 1) (0 : Fin 1) k)
      = (V m c main_v18 : IVec S8x1x100352 32) (ix3 ⟨t.val / 196, batch_lt t⟩ (0 : Fin 1) ⟨t.val % 196 * 512 + k.val, point_lt t k⟩) := by
  unfold blk2 iblk
  rw [View.read_apply]
  show V m c main_v18 _ = V m c main_v18 _
  congr 1
  funext a
  apply Fin.ext
  match a with
  | ⟨0, _⟩ => show win0_2.index t 0 * 1 + 1 * 0 = t.val / 196; rw [(index2 t).1]; omega
  | ⟨1, _⟩ => show win0_2.index t 1 * 1 + 1 * 0 = 0; rw [(index2 t).2.1]
  | ⟨2, _⟩ => show win0_2.index t 2 * 512 + 1 * k.val = t.val % 196 * 512 + k.val; rw [(index2 t).2.2]; omega

/-! ## The blocks as tiles of the padded point axis -/

theorem blk0_apply (c : Dev nD) (t : Fin cfg0.N) (ch : Fin 64) (k : Fin 512) :
    blk0 m c t (ix3 (0 : Fin 1) ch k)
      = Voxel.featPad (feat m c) ⟨t.val / 196, batch_lt t⟩ ch (t.val % 196 * 512 + k.val) := by
  refine (blk0_read m c t ch k).trans ?_
  rw [V_v14]
  refine (pad3_apply (feat m c) _ _ ch _).trans ?_
  unfold Voxel.featPad
  by_cases h : t.val % 196 * 512 + k.val < 100000
  · rw [dif_pos h, dif_pos h]
  · rw [dif_neg h, dif_neg h]; exact padValue_zero _

theorem blk1_apply (c : Dev nD) (t : Fin cfg0.N) (k : Fin 512) :
    blk1 m c t (ix3 (0 : Fin 1) (0 : Fin 1) k)
      = Voxel.xPad (vc m c) ⟨t.val / 196, batch_lt t⟩ (t.val % 196 * 512 + k.val) := by
  refine (blk1_read m c t k).trans ?_
  rw [V_v17]
  refine (padw_apply _ _ _ _).trans ?_
  unfold Voxel.xPad
  by_cases h : t.val % 196 * 512 + k.val < 100000
  · rw [dif_pos h, dif_pos h]; exact xw_apply _ _ _
  · rw [dif_neg h, dif_neg h]

theorem blk2_apply (c : Dev nD) (t : Fin cfg0.N) (k : Fin 512) :
    blk2 m c t (ix3 (0 : Fin 1) (0 : Fin 1) k)
      = Voxel.yzPad (vc m c) ⟨t.val / 196, batch_lt t⟩ (t.val % 196 * 512 + k.val) := by
  refine (blk2_read m c t k).trans ?_
  rw [V_v18]
  refine (padw_apply _ _ _ _).trans ?_
  unfold Voxel.yzPad
  by_cases h : t.val % 196 * 512 + k.val < 100000
  · rw [dif_pos h, dif_pos h]; exact yzw_apply _ _ _
  · rw [dif_neg h, dif_neg h]

/-- The one host operation after the region reshapes the output array to [8,64,32,32,32]. -/
theorem post_v20 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v20)
      = shapeCast S8x64x32x32x32 ((dats m 0 c).arrAt 3 cfg0.N : FVec Ideal S8x64x32768 .f32)
          Facts₀.shapeCasts_S8x64x32768_S8x64x32x32x32 := by
  refine ((h c).2 main_v20 (Pipeline.mem_restRefs_of main_v20 (by decide) (by decide))).trans ?_
  unfold Pipeline.afterTail₀
  show StableHlo.after hostOps1 _ (Proc.devRef .tc main_v20) = _
  after_results
  rw [Pipeline.withArrays_arr spec0 launch0.win.arr_inj c _ _ 3]
  generalize (dats m 0 c).arrAt 3 cfg0.N = X
  rfl
/-- No host operation after the region writes the coordinate words: they end as the host prefix computed them. -/
theorem post_v4 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v4) = vc m c := by
  refine ((h c).2 main_v4 (Pipeline.mem_restRefs_of main_v4 (by decide) (by decide))).trans ?_
  unfold Pipeline.afterTail₀
  rw [StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_v4 (by exact (by decide : ∀ w, Pipeline.arrRef spec0 w ≠ main_v4))]
  exact V_v4 m c

end Cert.KernelIdeal.Hand

end
-- ==== Proof.VoxelWords.lean ====
/-
  Facts about the coordinate words and the one-hot entries built from them.
-/
import Idealize.ShloMosaic.PureOps.Ideal
import Idealize.ShloMosaic.PureOps.Ideal.Laws
import Idealize.ShloMosaic.Lib.ValueIdx
import proofs.«126858_j17489106830002_1_alg».proof.Proof.LibOneHot
import proofs.«126858_j17489106830002_1_alg».proof.Proof.VoxelSpec

noncomputable section

open scoped BigOperators

namespace Voxel

open Idealize.ShloMosaic Idealize.ShloMosaic.ValueIdx OneHotSum

/-- Rounding a real between 0 and 31 to the nearest integer (ties to even) gives an integer between 0 and 31: the
    floor f lies between 0 and 31, the rounded value is f or f + 1, and when f = 31 the real is 31 itself, whose
    fractional part 0 is below one half, so the rounded value is f. -/
theorem roundHalfEven_range (r : ℝ) (h0 : 0 ≤ r) (h1 : r ≤ 31) :
    0 ≤ Ideal.roundHalfEven r ∧ Ideal.roundHalfEven r ≤ 31 := by
  have hf0 : 0 ≤ ⌊r⌋ := Int.floor_nonneg.mpr h0
  have hf1 : ⌊r⌋ ≤ 31 := by
    have : ⌊r⌋ ≤ ⌊(31 : ℝ)⌋ := Int.floor_le_floor h1
    simpa using this
  have hfr : (⌊r⌋ : ℝ) ≤ r := Int.floor_le r
  unfold Ideal.roundHalfEven
  simp only
  by_cases h31 : ⌊r⌋ = 31
  · have hlt : r - (⌊r⌋ : ℝ) < 1 / 2 := by
      rw [h31]; push_cast; linarith
    rw [if_pos hlt]; omega
  · have : ⌊r⌋ ≤ 30 := by omega
    split_ifs <;> omega

/-- An extended real between 0 and 31 is a real; rounded and converted to a 32-bit word it is a numeral from 0 to
    31: the rounded value is an integer k in that range, which the conversion's clamp to the signed 32-bit range
    leaves alone, and the word of k has the number k. -/
theorem fptosi_round_le (y : EReal) (h0 : 0 ≤ y) (h1 : y ≤ 31) :
    (Ideal.fptosi 32 (Ideal.liftRound Ideal.roundHalfEven y)).toNat ≤ 31 := by
  have e31 : (31 : EReal) = ((31 : ℝ) : EReal) := by norm_cast
  rw [e31] at h1
  have hbot : y ≠ ⊥ := fun h => by rw [h] at h0; exact absurd h0 (by simp)
  have htop : y ≠ ⊤ := fun h => by
    rw [h] at h1
    exact EReal.coe_ne_top _ (top_le_iff.mp h1)
  lift y to ℝ using ⟨htop, hbot⟩
  have h0' : (0 : ℝ) ≤ y := by exact_mod_cast h0
  have h1' : y ≤ (31 : ℝ) := by exact_mod_cast h1
  obtain ⟨hk0, hk1⟩ := roundHalfEven_range y h0' h1'
  rw [Ideal.liftRound_coe]
  generalize Ideal.roundHalfEven y = k at hk0 hk1
  unfold Ideal.fptosi
  rw [Ideal.toIntClamped_coe]
  have hk : (0 : ℝ) ≤ (k : ℝ) := by exact_mod_cast hk0
  rw [if_pos hk, Int.floor_intCast]
  rw [BitVec.toNat_ofInt]
  omega

/-- Every coordinate word is a number from 0 to 31: the clip leaves an extended real between 0 and 31, rounding to
    the nearest integer keeps it there, and the conversion of an integer in range is its numeral. -/
theorem words_le (hb : S0.BroadcastsInDim SCoord (![] : Fin 0 → Fin SCoord.rank)) (coords : FVec Ideal SCoord .f32)
    (i : SCoord.Idx) : (words hb coords i).toNat ≤ 31 := by
  show (Ideal.fptosi 32 (Ideal.liftRound Ideal.roundHalfEven
    (min (((31#32 : BitVec 32).toInt : ℝ) : EReal)
      (max (((0#32 : BitVec 32).toInt : ℝ) : EReal) (coords i * Ideal.ofBits .f32 0x42000000#32))))).toNat ≤ 31
  have e31 : (((31#32 : BitVec 32).toInt : ℝ) : EReal) = 31 := by
    have : (31#32 : BitVec 32).toInt = 31 := by decide
    rw [this]; norm_cast
  have e0 : (((0#32 : BitVec 32).toInt : ℝ) : EReal) = 0 := by
    have : (0#32 : BitVec 32).toInt = 0 := by decide
    rw [this]; norm_cast
  rw [e31, e0]
  apply fptosi_round_le
  · exact le_min (by norm_num) (le_max_left _ _)
  · exact min_le_left _ _

theorem one32_eq : one32 = 1 := by
  unfold one32
  simp [Ideal.ofBits, Ideal.ieee, -EReal.coe_mul]; norm_num

theorem one16_eq : one16 = 1 := by
  unfold one16
  simp [Ideal.ofBits, Ideal.ieee, -EReal.coe_mul]; norm_num

/-- The word -1 is the numeral of no x below 32. -/
theorem hot_pad (x : Fin 32) : hot 4294967295#32 x.val = 0 := by
  rw [hot_eq_ite, if_neg]
  intro h
  have := congrArg BitVec.toNat h
  simp at this
  omega

/-- The product of the two one-hot entries of a point, around any value f: f if the point lies in cell (x, q).
    With words at most 31 the word y * 32 + z has the number y * 32 + z, at most 1023, so the cell number
    x * 1024 + (y * 32 + z) splits uniquely into its x and its q. -/
theorem hot_cell (wx wy wz : BitVec 32) (hx : wx.toNat ≤ 31) (hy : wy.toNat ≤ 31) (hz : wz.toNat ≤ 31)
    (x : Fin 32) (q : Fin 1024) (f : EReal) :
    (hot wx x.val * f) * hot (wy * 32#32 + wz) q.val
      = if wx.toNat * 1024 + wy.toNat * 32 + wz.toNat = x.val * 1024 + q.val then f else 0 := by
  have hxlt := x.isLt
  have hqlt := q.isLt
  have hx' : wx = BitVec.ofNat 32 x.val ↔ wx.toNat = x.val := by
    rw [← BitVec.toNat_inj, BitVec.toNat_ofNat]; omega
  have hyz : (wy * 32#32 + wz).toNat = wy.toNat * 32 + wz.toNat := by
    simp only [BitVec.toNat_add, BitVec.toNat_mul, BitVec.toNat_ofNat]; omega
  have hq' : wy * 32#32 + wz = BitVec.ofNat 32 q.val ↔ wy.toNat * 32 + wz.toNat = q.val := by
    rw [← BitVec.toNat_inj, hyz, BitVec.toNat_ofNat]; omega
  have key : (wx.toNat * 1024 + wy.toNat * 32 + wz.toNat = x.val * 1024 + q.val)
      ↔ (wx.toNat = x.val ∧ wy.toNat * 32 + wz.toNat = q.val) := by omega
  rw [hot_eq_ite, hot_eq_ite]
  by_cases h1 : wx.toNat = x.val
  · by_cases h2 : wy.toNat * 32 + wz.toNat = q.val
    · rw [if_pos (hx'.mpr h1), if_pos (hq'.mpr h2), if_pos (key.mpr ⟨h1, h2⟩), one_mul, mul_one]
    · rw [if_neg (fun h => h2 (hq'.mp h)), if_neg (fun h => h2 (key.mp h).2), mul_zero]
  · rw [if_neg (fun h => h1 (hx'.mp h)), if_neg (fun h => h1 (key.mp h).1), zero_mul, zero_mul]

/-- The flat row number of a point of batch b', read signed, is row b * 32768 + v exactly when b' = b and the
    point lies in cell v. The word's number is b' * 32768 + cell, below 2 ^ 18, so reading it signed changes
    nothing, and a cell number below 32768 fixes both the batch and the cell. -/
theorem flat_hit (wx wy wz : BitVec 32) (hx : wx.toNat ≤ 31) (hy : wy.toNat ≤ 31) (hz : wz.toNat ≤ 31)
    (b' b : Fin 8) (v : Fin 32768) :
    (wx * 32#32 * 32#32 + wy * 32#32 + wz + BitVec.ofNat 32 b'.val * 32768#32).toInt = ((b.val * 32768 + v.val : ℕ) : ℤ)
      ↔ (b' = b ∧ wx.toNat * 1024 + wy.toNat * 32 + wz.toNat = v.val) := by
  have hb'lt := b'.isLt
  have hblt := b.isLt
  have hvlt := v.isLt
  have hn : (wx * 32#32 * 32#32 + wy * 32#32 + wz + BitVec.ofNat 32 b'.val * 32768#32).toNat
      = wx.toNat * 1024 + wy.toNat * 32 + wz.toNat + b'.val * 32768 := by
    simp only [BitVec.toNat_add, BitVec.toNat_mul, BitVec.toNat_ofNat]; omega
  have hi : (wx * 32#32 * 32#32 + wy * 32#32 + wz + BitVec.ofNat 32 b'.val * 32768#32).toInt
      = ((wx.toNat * 1024 + wy.toNat * 32 + wz.toNat + b'.val * 32768 : ℕ) : ℤ) := by
    rw [BitVec.toInt_eq_toNat_of_lt (by rw [hn]; omega), hn]
  rw [hi, Fin.ext_iff]
  constructor
  · intro h
    have h' := Int.ofNat_inj.mp h
    omega
  · rintro ⟨h1, h2⟩
    congr 1
    omega

end Voxel

end
-- ==== Proof.LibBlockSum.lean ====
/-
  Sums taken block by block. An index below n * b is b * t + r for exactly one block number t < n and one
  position r < b inside the block, so in any additive commutative monoid a sum over all n * b indices is the sum
  over the blocks of the sums inside each block. Stated in general, then for 4096 indices as 8 blocks of 512.
-/
import Mathlib.Algebra.BigOperators.Fin
import Mathlib.Data.Fintype.BigOperators
import Mathlib.Logic.Equiv.Fin.Basic

open scoped BigOperators

namespace Cert.Hand

/-- Position r of block t, blocks of length b, is an index below n * b. -/
theorem blocks_lt {n b : ℕ} (t : Fin n) (r : Fin b) : b * t.val + r.val < n * b := by
  have ht := t.isLt
  have hr := r.isLt
  calc b * t.val + r.val < b * t.val + b := by omega
    _ = b * (t.val + 1) := (Nat.mul_succ _ _).symm
    _ ≤ b * n := Nat.mul_le_mul_left _ (by omega)
    _ = n * b := Nat.mul_comm _ _

/-- The pairs (block, position) are the indices below n * b: (t, r) is b * t + r. -/
def blocksEquiv (n b : ℕ) : Fin n × Fin b ≃ Fin (n * b) := finProdFinEquiv

theorem blocksEquiv_val (n b : ℕ) (p : Fin n × Fin b) : (blocksEquiv n b p).val = b * p.1.val + p.2.val := by
  show p.2.val + b * p.1.val = _
  exact Nat.add_comm _ _

theorem blocksEquiv_apply (n b : ℕ) (t : Fin n) (r : Fin b) :
    blocksEquiv n b (t, r) = ⟨b * t.val + r.val, blocks_lt t r⟩ := Fin.ext (blocksEquiv_val n b (t, r))

/-- A sum over n * b indices is the sum over the n blocks of the b terms of each block. -/
theorem sum_blocks {M : Type*} [AddCommMonoid M] (n b : ℕ) (f : Fin (n * b) → M) :
    ∑ t : Fin n, ∑ r : Fin b, f ⟨b * t.val + r.val, blocks_lt t r⟩ = ∑ i : Fin (n * b), f i := by
  rw [← Fintype.sum_prod_type' (f := fun (t : Fin n) (r : Fin b) => f ⟨b * t.val + r.val, blocks_lt t r⟩)]
  exact Fintype.sum_equiv (blocksEquiv n b) _ _ fun p => congrArg f (blocksEquiv_apply n b p.1 p.2).symm

/-- 4096 indices as 8 blocks of 512. -/
theorem sum_blocks_8_512 {M : Type*} [AddCommMonoid M] (f : Fin 4096 → M) :
    ∑ t : Fin 8, ∑ r : Fin 512, f ⟨512 * t.val + r.val, by omega⟩ = ∑ i : Fin 4096, f i :=
  sum_blocks 8 512 f

/-- The same with the block number running over the naturals below 8. -/
theorem sum_range_blocks_8_512 {M : Type*} [AddCommMonoid M] (f : Fin 4096 → M) :
    ∑ t ∈ Finset.range 8, (if h : t < 8 then ∑ r : Fin 512, f ⟨512 * t + r.val, by omega⟩ else 0)
      = ∑ i : Fin 4096, f i := by
  rw [← sum_blocks_8_512 f, ← Fin.sum_univ_eq_sum_range
    (fun t => if h : t < 8 then ∑ r : Fin 512, f ⟨512 * t + r.val, by omega⟩ else 0) 8]
  exact Fintype.sum_congr _ _ fun t => by rw [dif_pos t.isLt]

end Cert.Hand
-- ==== Proof.VoxelSums.lean ====
/-
  The tile-by-tile accumulation is the total and the count of a cell.

  The 196 tiles of 512 points are the 100352 points of the padded axis taken block by block; the last 352 of them
  carry the x word -1, whose one-hot entry is 0 at every x below 32, so each adds 0 * a * b = 0. A point below 100000
  carries its own three words, and the product of its two one-hot entries around its augmented entry is that entry
  when the point lies in cell x * 1024 + q and 0 otherwise: the summand of the total (a channel row) or of the
  count (a row of ones).
-/
import Idealize.ShloMosaic.PureOps.Ideal
import Idealize.ShloMosaic.Lib.ValueIdx
import proofs.«126858_j17489106830002_1_alg».proof.Proof.LibOneHot
import proofs.«126858_j17489106830002_1_alg».proof.Proof.LibBlockSum
import proofs.«126858_j17489106830002_1_alg».proof.Proof.VoxelSpec
import proofs.«126858_j17489106830002_1_alg».proof.Proof.VoxelWords

noncomputable section

open scoped BigOperators

namespace Voxel

open Idealize.ShloMosaic Idealize.ShloMosaic.ValueIdx OneHotSum

/-- A padded point (number 100000 + j) adds nothing to any row of any cell: its x word is -1. -/
theorem contrib_pad (feat : FVec Ideal SFeat .f32) (vc : IVec SCoord 32) (b : Fin 8) (x : Fin 32) (c' : Fin 72)
    (q : Fin 1024) (j : ℕ) : contrib feat vc b x c' q (100000 + j) = 0 := by
  unfold contrib xPad
  rw [dif_neg (by omega), hot_pad, zero_mul, zero_mul]

/-- A point below 100000 adds its augmented entry to the cell it lies in and nothing to any other. -/
theorem contrib_point (feat : FVec Ideal SFeat .f32) (vc : IVec SCoord 32) (hr : ∀ i, (vc i).toNat ≤ 31)
    (b : Fin 8) (x : Fin 32) (c' : Fin 72) (q : Fin 1024) (n : Fin 100000) :
    contrib feat vc b x c' q n.val
      = if cell vc b n = x.val * 1024 + q.val then augPad feat b c' n.val else 0 := by
  unfold contrib xPad yzPad cell
  rw [dif_pos n.isLt, dif_pos n.isLt]
  exact hot_cell _ _ _ (hr _) (hr _) (hr _) x q _

/-- A channel row of the augmented rows at a point below 100000 is the channel's value at the point. -/
theorem augPad_channel (feat : FVec Ideal SFeat .f32) (b : Fin 8) (c : Fin 64) (n : Fin 100000) :
    augPad feat b ⟨c.val, by omega⟩ n.val = feat (ix3 b c n) := by
  unfold augPad featPad
  rw [dif_pos c.isLt, dif_pos n.isLt]

/-- Row 64 of the augmented rows is a row of ones. -/
theorem augPad_ones (feat : FVec Ideal SFeat .f32) (b : Fin 8) (n' : ℕ) :
    augPad feat b ⟨64, by omega⟩ n' = 1 := by
  unfold augPad
  rw [dif_neg (Nat.lt_irrefl 64), one16_eq]

/-- The 196 tiles of 512 points, regrouped: the sum over the 100000 points proper. -/
theorem accum_all (feat : FVec Ideal SFeat .f32) (vc : IVec SCoord 32) (b : Fin 8) (x : Fin 32) (c' : Fin 72)
    (q : Fin 1024) :
    accum feat vc b x c' q 196 = ∑ n : Fin 100000, contrib feat vc b x c' q n.val := by
  unfold accum
  rw [← Fin.sum_univ_eq_sum_range (fun s => ∑ k : Fin 512, contrib feat vc b x c' q (s * 512 + k.val)) 196]
  have h1 : ∀ t : Fin 196, (∑ k : Fin 512, contrib feat vc b x c' q (t.val * 512 + k.val))
      = ∑ r : Fin 512, (fun i : Fin (196 * 512) => contrib feat vc b x c' q i.val)
          ⟨512 * t.val + r.val, Cert.Hand.blocks_lt t r⟩ := by
    intro t
    refine Finset.sum_congr rfl fun k _ => ?_
    show _ = contrib feat vc b x c' q (512 * t.val + k.val)
    rw [Nat.mul_comm]
  refine (Finset.sum_congr rfl fun t _ => h1 t).trans ?_
  refine (Cert.Hand.sum_blocks 196 512 (fun i : Fin (196 * 512) => contrib feat vc b x c' q i.val)).trans ?_
  exact sum_zero_tail (n := 100000) (p := 352) (fun i : Fin (100000 + 352) => contrib feat vc b x c' q i.val)
    (fun j => contrib_pad feat vc b x c' q j.val)

/-- After all 196 tiles row c of cell (x, q) holds the total of channel c over the cell x * 1024 + q. -/
theorem accum_total (feat : FVec Ideal SFeat .f32) (vc : IVec SCoord 32) (hr : ∀ i, (vc i).toNat ≤ 31)
    (b : Fin 8) (x : Fin 32) (c : Fin 64) (q : Fin 1024) :
    accum feat vc b x ⟨c.val, by omega⟩ q 196 = total feat vc b c (x.val * 1024 + q.val) := by
  rw [accum_all]
  unfold total
  refine Finset.sum_congr rfl fun n _ => ?_
  rw [contrib_point feat vc hr, augPad_channel]

/-- After all 196 tiles row 64 (a row of ones) of cell (x, q) holds the count of the cell x * 1024 + q. -/
theorem accum_count (feat : FVec Ideal SFeat .f32) (vc : IVec SCoord 32) (hr : ∀ i, (vc i).toNat ≤ 31)
    (b : Fin 8) (x : Fin 32) (q : Fin 1024) :
    accum feat vc b x ⟨64, by omega⟩ q 196 = count vc b (x.val * 1024 + q.val) := by
  rw [accum_all]
  unfold count
  refine Finset.sum_congr rfl fun n _ => ?_
  rw [contrib_point feat vc hr, augPad_ones]

end Voxel

end
-- ==== Proof.KernelInv.lean ====
/-
  The accumulator, tile by tile, and the block written at a batch's last tile.

  Point t of the grid is tile t % 196 of batch t / 196. After it the accumulator holds, at row c' of cell (x, q), the
  sum of the contributions of the batch's first t % 196 + 1 tiles: the first tile of a batch starts from zero, every
  later tile adds its own 512 contributions to what the tile before left. At the last tile the block written out
  holds, at channel c and position x * 1024 + q, row c of the cell divided by the larger of row 64 (the count) and
  one: the mean of the cell.
-/
import proofs.«126858_j17489106830002_1_alg».proof.Proof.KernelPay
import proofs.«126858_j17489106830002_1_alg».proof.Proof.KernelPieces
import proofs.«126858_j17489106830002_1_alg».proof.Proof.KernelHost
import proofs.«126858_j17489106830002_1_alg».proof.Proof.VoxelSpec
import proofs.«126858_j17489106830002_1_alg».proof.Proof.VoxelWords
import proofs.«126858_j17489106830002_1_alg».proof.Proof.VoxelSums

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The batch of a point. -/
abbrev batch (t : Fin cfg0.N) : Fin 8 := ⟨t.val / 196, batch_lt t⟩

/-- Every coordinate word is at most 31. -/
theorem vc_le (c : Dev nD) (i : Voxel.SCoord.Idx) : (vc m c i).toNat ≤ 31 :=
  Voxel.words_le _ _ i

/-- A tile's sum over the blocks of point t is the sum of the contributions of the tile's 512 points. -/
theorem tileSum_blk (c : Dev nD) (t : Fin cfg0.N) (x : Fin 32) (c' : Fin 72) (q : Fin 1024) :
    tileSum (blk0 m c t) (blk1 m c t) (blk2 m c t) x c' q
      = ∑ k : Fin 512, Voxel.contrib (feat m c) (vc m c) (batch t) x c' q (t.val % 196 * 512 + k.val) := by
  unfold tileSum Voxel.contrib Voxel.augPad
  refine Finset.sum_congr rfl fun k _ => ?_
  rw [blk1_apply, blk2_apply]
  by_cases h : c'.val < 64
  · rw [dif_pos h, dif_pos h, blk0_apply]
  · rw [dif_neg h, dif_neg h]

/-- One tile: if the accumulator held the contributions of the batch's first T tiles, T the tile's number, then
    adding the tile's sum gives the contributions of the first T + 1 tiles. -/
theorem step_eq (c : Dev nD) (t : Fin cfg0.N) (prev : Vec Ideal S32x72x1024 .f32) (T : ℕ) (hT : T = t.val % 196)
    (hprev : ∀ (x : Fin 32) (c' : Fin 72) (q : Fin 1024),
      prev (ix3 x c' q) = Voxel.accum (feat m c) (vc m c) (batch t) x c' q T)
    (x : Fin 32) (c' : Fin 72) (q : Fin 1024) :
    k0_pay50 (F := Ideal) (blk0 m c t) (blk1 m c t) (blk2 m c t) prev (ix3 x c' q)
      = Voxel.accum (feat m c) (vc m c) (batch t) x c' q (t.val % 196 + 1) := by
  rw [pay50_apply, hprev, tileSum_blk, Voxel.accum_succ, hT]

/-- What the tile before left, for a tile that is not a batch's first: the contributions of the tiles before it. -/
theorem prev_of (c : Dev nD) (n : ℕ) (hn : n < cfg0.N) (h0 : ¬ n % 196 = 0) (hn1 : n - 1 < cfg0.N)
    (ih : ∀ (x : Fin 32) (c' : Fin 72) (q : Fin 1024), (outsAt0 m c (n - 1) hn1).2 (ix3 x c' q)
      = Voxel.accum (feat m c) (vc m c) (batch ⟨n - 1, hn1⟩) x c' q ((n - 1) % 196 + 1))
    (x : Fin 32) (c' : Fin 72) (q : Fin 1024) :
    (outsAt0 m c (n - 1) hn1).2 (ix3 x c' q)
      = Voxel.accum (feat m c) (vc m c) (batch ⟨n, hn⟩) x c' q (n % 196) := by
  rw [ih x c' q]
  have hb : batch ⟨n - 1, hn1⟩ = batch ⟨n, hn⟩ := Fin.ext (by show (n - 1) / 196 = n / 196; omega)
  have hT : (n - 1) % 196 + 1 = n % 196 := by omega
  rw [hb, hT]

/-- After point n the accumulator holds the contributions of the batch's first n % 196 + 1 tiles. -/
theorem acc_eq (c : Dev nD) : ∀ (n : ℕ) (hn : n < cfg0.N) (x : Fin 32) (c' : Fin 72) (q : Fin 1024),
    (outsAt0 m c n hn).2 (ix3 x c' q)
      = Voxel.accum (feat m c) (vc m c) (batch ⟨n, hn⟩) x c' q (n % 196 + 1) := by
  intro n
  induction n using Nat.strong_induction_on with
  | _ n ih =>
    intro hn x c' q
    by_cases h0 : n % 196 = 0
    · have h1 : ¬ n % 196 = 195 := by omega
      rw [outsAt0_A m c ⟨n, hn⟩ h0 h1]
      dsimp only
      rw [sout_A]
      exact step_eq m c ⟨n, hn⟩ (k0_pay49 (F := Ideal)) 0 h0.symm
        (fun x c' q => by rw [pay49_apply, Voxel.accum_zero]) x c' q
    · have hn1 : n - 1 < cfg0.N := by omega
      have hlt : n - 1 < n := by omega
      have hprev := prev_of m c n hn h0 hn1 (ih (n - 1) hlt hn1)
      by_cases h1 : n % 196 = 195
      · rw [outsAt0_C m c ⟨n, hn⟩ h0 h1]
        dsimp only
        rw [sout_C]
        exact step_eq m c ⟨n, hn⟩ _ (n % 196) rfl hprev x c' q
      · rw [outsAt0_B m c ⟨n, hn⟩ h0 h1]
        dsimp only
        rw [sout_B]
        exact step_eq m c ⟨n, hn⟩ _ (n % 196) rfl hprev x c' q

/-- Slab x of an accumulator read at row c' and position q is the accumulator at (x, c', q). -/
theorem slabOf_apply (A : Vec Ideal S32x72x1024 .f32) (x : Fin 32) (c' : Fin 72) (q : Fin 1024) :
    slabOf A x (ix3 (0 : Fin 1) c' q) = A (ix3 x c' q) := rfl

/-- At a batch's last tile the output block holds the means of the batch's cells. -/
theorem out_eq (c : Dev nD) (t : Fin cfg0.N) (h1 : t.val % 196 = 195) (x : Fin 32) (ch : Fin 64) (q : Fin 1024) :
    (outsAt0 m c t.val t.isLt).1 (slabIdx x ch q)
      = Voxel.meanAt (feat m c) (vc m c) (batch t) ch ⟨x.val * 1024 + q.val, by omega⟩ := by
  have h0 : ¬ t.val % 196 = 0 := by omega
  have hn1 : t.val - 1 < cfg0.N := by have := t.isLt; omega
  have hprev := prev_of m c t.val t.isLt h0 hn1 (acc_eq m c (t.val - 1) hn1)
  rw [outsAt0_C m c t h0 h1]
  dsimp only
  rw [out_C, slab_apply, slabOf_apply, slabOf_apply]
  rw [step_eq m c t _ (t.val % 196) rfl hprev x ⟨ch.val, by omega⟩ q,
    step_eq m c t _ (t.val % 196) rfl hprev x ⟨64, by omega⟩ q, h1]
  rw [Voxel.accum_total (feat m c) (vc m c) (vc_le m c) (batch t) x ch q,
    Voxel.accum_count (feat m c) (vc m c) (vc_le m c) (batch t) x q]
  rfl

end Cert.KernelIdeal.Hand

end
-- ==== Proof.KernelFinal.lean ====
/-
  From the blocks written at the batches' last tiles to the whole output array.

  The output array has shape [8, 64, 32768]: batch, channel, cell. Its window is one block [1, 64, 32768] per batch,
  block b at block index (b, 0, 0), written out once, at the last tile of the batch (point t with t % 196 = 195, whose
  batch is t / 196). At that point the block holds, at channel ch and position x * 1024 + q, the mean of cell (x, q);
  every position v below 32768 is (v / 1024) * 1024 + v % 1024, so the block holds the mean at every one of its
  indices, and read through the window it is the batch's part of the array of means. Every index (b, ch, v) of the
  array lies in the block of point b * 196 + 195, so the eight blocks fill the array: after the region the array is
  the array of means.
-/
import proofs.«126858_j17489106830002_1_alg».proof.Proof.KernelInv
import proofs.«126858_j17489106830002_1_alg».proof.Proof.VoxelSpec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The output window's block index at point t: the batch, then zero twice. -/
private theorem out_index : ∀ t : Fin cfg0.N, win0_3.index t (0 : Fin 3) = t.val / 196 ∧ win0_3.index t (1 : Fin 3) = 0 ∧ win0_3.index t (2 : Fin 3) = 0 :=
  (by decide +kernel : ∀ t : Fin grid0.N, win0_3.index t (0 : Fin 3) = t.val / 196 ∧ win0_3.index t (1 : Fin 3) = 0 ∧ win0_3.index t (2 : Fin 3) = 0)

/-- Every index of a batch's output block is the index of a cell (x, q) at a channel. -/
private theorem eq_slabIdx (j : S1x64x32768.Idx) :
    j = slabIdx ⟨(j 2).val / 1024, by have h : (j 2).val < 32768 := (j 2).isLt; omega⟩ (j 1) ⟨(j 2).val % 1024, Nat.mod_lt _ (by decide)⟩ := by
  funext a
  match a with
  | ⟨0, _⟩ => apply Fin.ext; have h : (j 0).val < 1 := (j 0).isLt; show (j 0).val = 0; omega
  | ⟨1, _⟩ => rfl
  | ⟨2, _⟩ => apply Fin.ext; show (j 2).val = (j 2).val / 1024 * 1024 + (j 2).val % 1024; omega

/-- A block that holds, at every cell (x, q) of every channel, the value M gives there holds M's value at every index. -/
private theorem block_read (X : Vec Ideal S1x64x32768 .f32) (M : Fin 64 → Fin 32768 → EReal)
    (h : ∀ (x : Fin 32) (ch : Fin 64) (q : Fin 1024), X (slabIdx x ch q) = M ch ⟨x.val * 1024 + q.val, by omega⟩)
    (j : S1x64x32768.Idx) : X j = M (j 1) (j 2) := by
  have h2 : (j 2).val < 32768 := (j 2).isLt
  have e := h ⟨(j 2).val / 1024, by omega⟩ (j 1) ⟨(j 2).val % 1024, Nat.mod_lt _ (by decide)⟩
  rw [← eq_slabIdx j] at e
  refine e.trans (congrArg (M (j 1)) (Fin.ext ?_))
  show (j 2).val / 1024 * 1024 + (j 2).val % 1024 = (j 2).val
  omega

/-- What the last tile of a batch writes out is the batch's block of the array of means. -/
theorem flushed_eq (c : Dev nD) (t : Fin cfg0.N) (hf : (cfg0.win 3).flush t = true) :
    (dats m 0 c).flushed 3 t = ((cfg0.win 3).blk t).view.read (Elt Ideal) (Voxel.mean (feat m c) (vc m c)) := by
  have h195 : t.val % 196 = 195 := (flush0_3 t).mp hf
  show (cfg0.win 3).cut (grid0.coords t) ((dats m 0 c).after 3 t) = _
  rw [after0_3]
  funext j
  rw [View.read_apply]
  rw [cast_eq]
  obtain ⟨i0, i1, i2⟩ := out_index t
  have he : ((cfg0.win 3).blk t).view.emb j = ix3 (batch t) (win0_3.xinj (grid0.coords t) j 1) (win0_3.xinj (grid0.coords t) j 2) := by
    funext a; apply Fin.ext
    match a with
    | ⟨0, _⟩ => show win0_3.index t (0 : Fin 3) * 1 + 1 * (j 0).val = t.val / 196; have hj : (j 0).val < 1 := (j 0).isLt; omega
    | ⟨1, _⟩ => show win0_3.index t (1 : Fin 3) * 64 + 1 * (j 1).val = (j 1).val; omega
    | ⟨2, _⟩ => show win0_3.index t (2 : Fin 3) * 32768 + 1 * (j 2).val = (j 2).val; omega
  refine (block_read (outsAt0 m c t.val t.isLt).1 (fun ch v => Voxel.meanAt (feat m c) (vc m c) (batch t) ch v)
    (fun x ch q => out_eq m c t h195 x ch q) _).trans ?_
  exact ((congrArg (Voxel.mean (feat m c) (vc m c)) he).trans (Voxel.mean_ix3 ..)).symm

/-- An index of the output array lies in point t's block iff each coordinate lies in the block's range on its axis. -/
private theorem mem_blk (t : Fin cfg0.N) (i : S8x64x32768.Idx) :
    i ∈ ((cfg0.win 3).blk t).view.set ↔ ∀ a : Fin 3, win0_3.index t a * S1x64x32768.size a ≤ (i a).val ∧ (i a).val < win0_3.index t a * S1x64x32768.size a + S1x64x32768.size a := by
  show i ∈ ((View.whole main_v19).slice (win0_3.rect t)).set ↔ _
  rw [View.set_slice_whole, Rect.mem_set_unit]
  exact Iff.rfl

/-- Every index (b, ch, v) of the output array lies in the block written at the last tile of batch b. -/
private theorem cover (i : S8x64x32768.Idx) : ∃ t : Fin cfg0.N, (cfg0.win 3).flush t = true ∧ i ∈ ((cfg0.win 3).blk t).view.set := by
  have hN : cfg0.N = 1568 := N_0
  have h0 : (i 0).val < 8 := (i 0).isLt
  have h1 : (i 1).val < 64 := (i 1).isLt
  have h2 : (i 2).val < 32768 := (i 2).isLt
  have ht : (i 0).val * 196 + 195 < cfg0.N := by omega
  refine ⟨⟨(i 0).val * 196 + 195, ht⟩, (flush0_3 _).mpr (by show ((i 0).val * 196 + 195) % 196 = 195; omega), ?_⟩
  obtain ⟨e0, e1, e2⟩ := out_index ⟨(i 0).val * 196 + 195, ht⟩
  have e0' : win0_3.index ⟨(i 0).val * 196 + 195, ht⟩ (0 : Fin 3) = (i 0).val := by
    rw [e0]; show ((i 0).val * 196 + 195) / 196 = _; omega
  rw [mem_blk]
  intro a
  match a with
  | ⟨0, _⟩ =>
    show win0_3.index ⟨(i 0).val * 196 + 195, ht⟩ (0 : Fin 3) * 1 ≤ (i 0).val ∧ (i 0).val < win0_3.index ⟨(i 0).val * 196 + 195, ht⟩ (0 : Fin 3) * 1 + 1
    omega
  | ⟨1, _⟩ =>
    show win0_3.index ⟨(i 0).val * 196 + 195, ht⟩ (1 : Fin 3) * 64 ≤ (i 1).val ∧ (i 1).val < win0_3.index ⟨(i 0).val * 196 + 195, ht⟩ (1 : Fin 3) * 64 + 64
    omega
  | ⟨2, _⟩ =>
    show win0_3.index ⟨(i 0).val * 196 + 195, ht⟩ (2 : Fin 3) * 32768 ≤ (i 2).val ∧ (i 2).val < win0_3.index ⟨(i 0).val * 196 + 195, ht⟩ (2 : Fin 3) * 32768 + 32768
    omega

/-- After the region the output array is the array of means. -/
theorem final (c : Dev nD) : (dats m 0 c).arrAt 3 cfg0.N = Voxel.mean (feat m c) (vc m c) :=
  (dats m 0 c).arrAt_eq_of_cover 3 (Voxel.mean (feat m c) (vc m c)) (flushed_eq m c) cover

end Cert.KernelIdeal.Hand

end
-- ==== Proof.KernelRun.lean ====
/-
  The kernel's run, read: its first result ends at the array of means laid out as (batch, channel, x, y, z), its
  second at the coordinate words, the two arguments unchanged. The output array of the region is the array of means
  (one block per batch, written at the batch's last tile); the one host operation after the region re-lays it, and
  no operation after the words were computed writes them again.
-/
import proofs.«126858_j17489106830002_1_alg».proof.Proof.KernelInv
import proofs.«126858_j17489106830002_1_alg».proof.Proof.KernelHost
import proofs.«126858_j17489106830002_1_alg».proof.Proof.KernelFinal

set_option maxRecDepth 16384

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The means of every batch, channel and cell, laid out over (batch, channel, x, y, z). -/
abbrev result (c : Dev nD) : Buf (Elt Ideal) ((c.tc : Thread nD τ).loc main_v20) :=
  shapeCast _ (Voxel.mean (feat m c) (vc m c)) Facts₀.shapeCasts_S8x64x32768_S8x64x32x32x32

/-- Every weakly fair execution of the kernel's program terminates with the means in its first result, the
    coordinate words in its second, and its arguments as they were. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_v4) = vc m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(post_v20 m r h c).trans (by rw [final m c]; rfl),
     post_v4 m r h c,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.LibSegmentSum.lean ====
import Idealize.ShloMosaic.PureOps.Ideal
import Idealize.ShloMosaic.Lib.ValueIdx

/-!
# A scatter-add of rows (`jax.ops.segment_sum`) read at one entry

`segment_sum(upd, ids, num_segments = N)` of an `E × C` array prints as the accumulating scatter of the `E` rows of
`upd` into an `N × C` operand, row `e` landing on row `ids e` (read signed, dropped when outside `[0, N)`). Over the
extended reals its entry `(n, c)` is the operand's entry plus the sum of `upd (e, c)` over the rows `e` with `ids e = n`.
-/

noncomputable section

namespace Idealize.ShloMosaic.SegmentSum

open Idealize.ShloMosaic Idealize.ShloMosaic.ValueIdx

/-- The dimension numbers of a scatter of `E` rows of width `C` into an `N × C` operand along axis 0, the row
    identifiers an `E × 1` column. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)

/-- On the operand's row axis the window of update index `j` starts at the identifier of `j`'s row, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's column axis every window starts at `0`. -/
theorem start_one (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from (by decide : (1 : Fin 2) ∉ ([0] : List (Fin 2))))]

/-- The row axis is inserted: its window coordinate is `0`. -/
theorem window_zero (j : (⟨2, ![E, C]⟩ : Shape).Idx) :
    (rowDims N E C wf).window j 0 = 0 := by
  unfold ScatterDims.window
  rw [dif_neg (show ¬ (0 : Fin 2) ∈ (rowDims N E C wf).sKept from (by decide : (0 : Fin 2) ∉ (List.finRange 2).filter (· ∉ ([0] : List (Fin 2)))))]

/-- The column axis carries the update's column coordinate. -/
theorem window_one (j : (⟨2, ![E, C]⟩ : Shape).Idx) :
    (rowDims N E C wf).window j 1 = (j 1).val := by
  unfold ScatterDims.window
  rw [dif_pos (show (1 : Fin 2) ∈ (rowDims N E C wf).sKept from (by decide : (1 : Fin 2) ∈ (List.finRange 2).filter (· ∉ ([0] : List (Fin 2)))))]
  rfl

/-- Update index `j` lands on operand index `i` exactly when the identifier of `j`'s row is `i`'s row and the two have
    the same column (the range conditions hold of themselves, `i` being an index of the operand). -/
theorem resultIdx?_eq_some_iff (j : (⟨2, ![E, C]⟩ : Shape).Idx) (idx : IVec ⟨2, ![E, 1]⟩ w)
    (i : (⟨2, ![N, C]⟩ : Shape).Idx) :
    (rowDims N E C wf).resultIdx? j idx = some i
      ↔ (idx (ix2 (j 0) (0 : Fin 1))).toInt = ((i 0).val : Int) ∧ (j 1).val = (i 1).val := by
  have hi0 := idx2_lt0 i
  have hj1 := idx2_lt1 j
  unfold ScatterDims.resultIdx?
  split_ifs with h
  · rw [Option.some.injEq]
    constructor
    · intro hf
      have h0 := congrArg (fun f => (f 0).val) hf
      have h1 := congrArg (fun f => (f 1).val) hf
      have hh0 := (h 0).1
      simp only [start_zero, window_zero, start_one, window_one] at h0 h1 hh0
      constructor <;> omega
    · rintro ⟨h0, h1⟩
      funext a
      refine Fin.ext ?_
      match a with
      | ⟨0, _⟩ =>
        show ((rowDims N E C wf).start j idx 0 + ((rowDims N E C wf).window j 0 : Int)).toNat = (i 0).val
        rw [start_zero, window_zero, h0]; omega
      | ⟨1, _⟩ =>
        show ((rowDims N E C wf).start j idx 1 + ((rowDims N E C wf).window j 1 : Int)).toNat = (i 1).val
        rw [start_one, window_one, h1]; omega
  · constructor
    · intro hf; exact absurd hf (by simp)
    · rintro ⟨h0, h1⟩
      refine absurd ?_ h
      intro a
      match a with
      | ⟨0, _⟩ =>
        show 0 ≤ (rowDims N E C wf).start j idx 0 + ((rowDims N E C wf).window j 0 : Int)
          ∧ (rowDims N E C wf).start j idx 0 + ((rowDims N E C wf).window j 0 : Int) < (N : Int)
        rw [start_zero, window_zero, h0]; omega
      | ⟨1, _⟩ =>
        show 0 ≤ (rowDims N E C wf).start j idx 1 + ((rowDims N E C wf).window j 1 : Int)
          ∧ (rowDims N E C wf).start j idx 1 + ((rowDims N E C wf).window j 1 : Int) < (C : Int)
        rw [start_one, window_one]; omega

end

/-- The accumulating row scatter over the extended reals at the entry `(n, c)`: the operand's entry plus the sum, over
    the update rows `e` whose identifier is `n`, of `upd (e, c)`. -/
theorem hostScatterAdd_rows {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [resultIdx?_eq_some_iff]
  show (∑ c' : Fin C, if (idx (ix2 e (0 : Fin 1))).toInt = (n.val : Int) ∧ c'.val = c.val then upd (ix2 e c') else 0) = _
  by_cases hr : (idx (ix2 e (0 : Fin 1))).toInt = (n.val : Int)
  · simp only [hr, true_and, if_true, Fin.val_inj]
    rw [Finset.sum_ite_eq' Finset.univ c (fun c' => upd (ix2 e c'))]
    simp
  · simp only [hr, false_and, if_false, Finset.sum_const_zero]

end Idealize.ShloMosaic.SegmentSum

end
-- ==== Proof.RefValue.lean ====
/-
  The reference's value before its last reshape is the array of voxel means.

  The reference flattens the 8 batches of 100000 points into 800000 rows, row 100000 * b' + n being point n of
  batch b'. The identifier of that row is (x * 32) * 32 + y * 32 + z of the point's three coordinate words plus
  b' * 32768, computed in 32-bit words; read signed it is the row b * 32768 + v of the 262144 flattened cells exactly
  when b' = b and the point lies in cell v. Two accumulating scatters run over these identifiers: one adds each
  point's 64 channel values into its row, the other adds a one. Over the extended reals an accumulating scatter's
  entry is the operand's entry (zero here) plus the sum of the updates whose identifier is that entry's row. Splitting
  the sum over the 800000 rows into the sum over the batches of the sums over each batch's points, every batch but
  b contributes nothing, and batch b contributes the cell's total (first scatter) or its count (second scatter).
  The quotient of the first by the larger of the second and one, read through the reshape to (batch, cell, channel)
  and the transpose to (batch, channel, cell), is the mean.

  The first scatter's reading at an entry is the lemma of the row scatter; the second scatter has a one-axis operand
  and a vector of updates, and its reading at an entry is proved here in the same way.
-/
import proofs.«126858_j17489106830002_1_alg».proof.Proof.Gen.ReferenceIdeal.Read
import proofs.«126858_j17489106830002_1_alg».proof.Proof.VoxelSpec
import proofs.«126858_j17489106830002_1_alg».proof.Proof.VoxelWords
import proofs.«126858_j17489106830002_1_alg».proof.Proof.LibSegmentSum
import proofs.«126858_j17489106830002_1_alg».proof.Proof.LibBlockSum
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable [Cert.ReferenceIdeal.Facts]
open Facts₀ Facts

/-! ## The accumulating scatter of a column of values (the count's `segment_sum`) read at one entry

The operand has one axis of `N` entries, the identifiers are an `E × 1` column and the updates a vector of `E`
values: value `e` lands on entry `ids e` (read signed, dropped outside `[0, N)`). Entry `n` of the result is the
operand's entry plus the sum of the values whose identifier is `n`. -/

/-- The dimension numbers of a scatter of `E` values into `N` entries, the identifiers an `E × 1` column. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)

/-- The window of update `j` starts at the identifier of `j`, read signed. -/
theorem flat_start (j : (⟨1, ![E]⟩ : Shape).Idx) (idx : IVec ⟨2, ![E, 1]⟩ w) :
    (flatDims N E wf).start j idx 0 = (idx (ix2 (j 0) (0 : Fin 1))).toInt := by
  unfold ScatterDims.start
  rw [dif_pos (show (0 : Fin 1) ∈ (flatDims N E wf).scatterDimsToOperandDims from List.mem_singleton.mpr rfl)]
  have hsi : (flatDims N E wf).siIdx j ⟨List.idxOf (0 : Fin 1) (flatDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: its window coordinate is `0`. -/
theorem flat_window (j : (⟨1, ![E]⟩ : Shape).Idx) : (flatDims N E wf).window j 0 = 0 := by
  unfold ScatterDims.window
  rw [dif_neg (show ¬ (0 : Fin 1) ∈ (flatDims N E wf).sKept from (by decide : (0 : Fin 1) ∉ (List.finRange 1).filter (· ∉ ([0] : List (Fin 1)))))]

/-- Update `j` lands on entry `i` exactly when the identifier of `j` is `i`'s number. -/
theorem flat_resultIdx?_eq_some_iff (j : (⟨1, ![E]⟩ : Shape).Idx) (idx : IVec ⟨2, ![E, 1]⟩ w)
    (i : (⟨1, ![N]⟩ : Shape).Idx) :
    (flatDims N E wf).resultIdx? j idx = some i ↔ (idx (ix2 (j 0) (0 : Fin 1))).toInt = ((i 0).val : Int) := by
  have hi0 : (i 0).val < N := (i 0).isLt
  unfold ScatterDims.resultIdx?
  split_ifs with h
  · rw [Option.some.injEq]
    constructor
    · intro hf
      have h0 := congrArg (fun f => (f 0).val) hf
      have hh0 := (h 0).1
      simp only [flat_start, flat_window] at h0 hh0
      omega
    · intro h0
      funext a
      refine Fin.ext ?_
      match a with
      | ⟨0, _⟩ =>
        show ((flatDims N E wf).start j idx 0 + ((flatDims N E wf).window j 0 : Int)).toNat = (i 0).val
        rw [flat_start, flat_window, h0]; omega
  · constructor
    · intro hf; exact absurd hf (by simp)
    · intro h0
      refine absurd ?_ h
      intro a
      match a with
      | ⟨0, _⟩ =>
        show 0 ≤ (flatDims N E wf).start j idx 0 + ((flatDims N E wf).window j 0 : Int)
          ∧ (flatDims N E wf).start j idx 0 + ((flatDims N E wf).window j 0 : Int) < (N : Int)
        rw [flat_start, flat_window, h0]; omega

end

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating scatter of a column over the extended reals at entry `n`: the operand's entry plus the sum of the
    values whose identifier is `n`. -/
theorem hostScatterAdd_flat {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (flatDims N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, sum_idx1]
  refine Finset.sum_congr rfl fun e _ => ?_
  simp only [flat_resultIdx?_eq_some_iff]
  rfl

/-! ## The reference's layout operations at explicit coordinates

Update row `e = 100000 * b' + n` of the flattened point axis is point `n` of batch `b'`; operand row
`b * 32768 + v` is cell `v` of batch `b`. -/

/-- Row `100000 * b' + n` of the 800000 flattened points. -/
abbrev pt (b' : Fin 8) (n : Fin 100000) : Fin 800000 :=
  ⟨100000 * b'.val + n.val, by have := b'.isLt; have := n.isLt; omega⟩

/-- Row `b * 32768 + v` of the 262144 flattened cells. -/
abbrev row (b : Fin 8) (v : Fin 32768) : Fin 262144 :=
  ⟨b.val * 32768 + v.val, by have := b.isLt; have := v.isLt; omega⟩

theorem idx41 (b : Fin 8) (c : Fin 64) (v : Fin 32768) : idx_main_v41 (ix3 b c v) = ix3 b v c := by
  funext a; match a with
  | ⟨0, _⟩ => rfl
  | ⟨1, _⟩ => rfl
  | ⟨2, _⟩ => rfl

theorem idx40 (b : Fin 8) (c : Fin 64) (v : Fin 32768) : idx_main_v40 (ix3 b v c) = ix2 (row b v) c := by
  have hb := b.isLt; have hc := c.isLt; have hv := v.isLt
  funext a; match a with
  | ⟨0, _⟩ => exact Fin.ext (by show ((b.val * 32768 + v.val) * 64 + c.val) / 64 = b.val * 32768 + v.val; omega)
  | ⟨1, _⟩ => exact Fin.ext (by show ((b.val * 32768 + v.val) * 64 + c.val) % 64 = c.val; omega)

theorem idx38 (r : Fin 262144) (c : Fin 64) : idx_main_v38 (ix2 r c) = ix2 r (0 : Fin 1) := by
  funext a; match a with
  | ⟨0, _⟩ => rfl
  | ⟨1, _⟩ => rfl

theorem idx37 (r : Fin 262144) : idx_main_v37 (ix2 r (0 : Fin 1)) = ix1 r := by
  funext a; match a with
  | ⟨0, _⟩ => rfl

theorem idx29 (e : Fin 800000) : idx_main_v29 (ix2 e (0 : Fin 1)) = ix1 e := by
  funext a; match a with
  | ⟨0, _⟩ => rfl

theorem idx33 (e : Fin 800000) : idx_main_v33 (ix2 e (0 : Fin 1)) = ix1 e := by
  funext a; match a with
  | ⟨0, _⟩ => rfl

theorem idx25 (b' : Fin 8) (n : Fin 100000) : idx_main_v25 (ix1 (pt b' n)) = ix2 b' n := by
  have hb := b'.isLt; have hn := n.isLt
  funext a; match a with
  | ⟨0, _⟩ => exact Fin.ext (by show (100000 * b'.val + n.val) / 100000 = b'.val; omega)
  | ⟨1, _⟩ => exact Fin.ext (by show (100000 * b'.val + n.val) % 100000 = n.val; omega)

theorem idx23 (b' : Fin 8) (n : Fin 100000) : idx_main_v23 (ix2 b' n) = ix2 b' (0 : Fin 1) := by
  funext a; match a with
  | ⟨0, _⟩ => rfl
  | ⟨1, _⟩ => rfl

theorem idx20 (b' : Fin 8) : idx_main_v20 (ix2 b' (0 : Fin 1)) = ix1 b' := by
  funext a; match a with
  | ⟨0, _⟩ => rfl

theorem idx6 (b' : Fin 8) (n : Fin 100000) : idx_main_v6 (ix2 b' n) = ix3 b' (0 : Fin 1) n := by
  have hb := b'.isLt; have hn := n.isLt
  funext a; match a with
  | ⟨0, _⟩ => exact Fin.ext (by show (b'.val * 100000 + n.val) / 100000 = b'.val; omega)
  | ⟨1, _⟩ => rfl
  | ⟨2, _⟩ => exact Fin.ext (by show (b'.val * 100000 + n.val) % 100000 = n.val; omega)

theorem idx12 (b' : Fin 8) (n : Fin 100000) : idx_main_v12 (ix2 b' n) = ix3 b' (0 : Fin 1) n := idx6 b' n

theorem idx17 (b' : Fin 8) (n : Fin 100000) : idx_main_v17 (ix2 b' n) = ix3 b' (0 : Fin 1) n := idx6 b' n

theorem idx5 (b' : Fin 8) (n : Fin 100000) : idx_main_v5 (ix3 b' (0 : Fin 1) n) = ix3 b' (0 : Fin 3) n := by
  funext a; match a with
  | ⟨0, _⟩ => rfl
  | ⟨1, _⟩ => rfl
  | ⟨2, _⟩ => rfl

theorem idx11 (b' : Fin 8) (n : Fin 100000) : idx_main_v11 (ix3 b' (0 : Fin 1) n) = ix3 b' (1 : Fin 3) n := by
  funext a; match a with
  | ⟨0, _⟩ => rfl
  | ⟨1, _⟩ => rfl
  | ⟨2, _⟩ => rfl

theorem idx16 (b' : Fin 8) (n : Fin 100000) : idx_main_v16 (ix3 b' (0 : Fin 1) n) = ix3 b' (2 : Fin 3) n := by
  funext a; match a with
  | ⟨0, _⟩ => rfl
  | ⟨1, _⟩ => rfl
  | ⟨2, _⟩ => rfl

theorem idx27 (b' : Fin 8) (n : Fin 100000) (c : Fin 64) : idx_main_v27 (ix2 (pt b' n) c) = ix3 b' n c := by
  have hb := b'.isLt; have hn := n.isLt; have hc := c.isLt
  funext a; match a with
  | ⟨0, _⟩ => exact Fin.ext (by show ((100000 * b'.val + n.val) * 64 + c.val) / 6400000 = b'.val; omega)
  | ⟨1, _⟩ => exact Fin.ext (by show ((100000 * b'.val + n.val) * 64 + c.val) / 64 % 100000 = n.val; omega)
  | ⟨2, _⟩ => exact Fin.ext (by show ((100000 * b'.val + n.val) * 64 + c.val) % 64 = c.val; omega)

theorem idx26 (b' : Fin 8) (n : Fin 100000) (c : Fin 64) : idx_main_v26 (ix3 b' n c) = ix3 b' c n := by
  funext a; match a with
  | ⟨0, _⟩ => rfl
  | ⟨1, _⟩ => rfl
  | ⟨2, _⟩ => rfl

/-! ## The identifiers and the values the two scatters are fed -/

/-- The coordinate words as the reference computes them. -/
abbrev W (x1 : (⟨S8x3x100000, .f32⟩ : BufTy).Contents (Elt Ideal)) : IVec Voxel.SCoord 32 :=
  Voxel.words bcast_S_S8x3x100000 x1

/-- The converted, rounded, clipped, scaled coordinates are the coordinate words. -/
theorem v4_eq (x1 : (⟨S8x3x100000, .f32⟩ : BufTy).Contents (Elt Ideal)) : val_main_v4 (F := Ideal) x1 = W x1 := rfl

/-- The identifier of point `n` of batch `b'`: `(x * 32) * 32 + y * 32 + z` of its words plus `b' * 32768`, in 32-bit
    word arithmetic. -/
theorem word25 (x1 : (⟨S8x3x100000, .f32⟩ : BufTy).Contents (Elt Ideal)) (b' : Fin 8) (n : Fin 100000) :
    val_main_v25 (F := Ideal) x1 (ix1 (pt b' n))
      = W x1 (ix3 b' (0 : Fin 3) n) * 32#32 * 32#32 + W x1 (ix3 b' (1 : Fin 3) n) * 32#32 + W x1 (ix3 b' (2 : Fin 3) n)
        + BitVec.ofNat 32 b'.val * 32768#32 := by
  rw [val_main_v25_apply, idx25, val_main_v24_apply, val_main_v18_apply, val_main_v15_apply, val_main_v10_apply,
    val_main_v8_apply, val_main_v6_apply, idx6, val_main_v5_apply, idx5, val_main_v7_apply, val_main_c_1_apply,
    val_main_v9_apply, val_main_c_2_apply, val_main_v14_apply, val_main_v12_apply, idx12, val_main_v11_apply, idx11,
    val_main_v13_apply, val_main_c_3_apply, val_main_v17_apply, idx17, val_main_v16_apply, idx16, val_main_v23_apply,
    idx23, val_main_v22_apply, val_main_v20_apply, idx20, val_main_v19_apply, val_main_v21_apply, val_main_c_4_apply,
    v4_eq]
  rfl

theorem word29 (x1 : (⟨S8x3x100000, .f32⟩ : BufTy).Contents (Elt Ideal)) (b' : Fin 8) (n : Fin 100000) :
    val_main_v29 (F := Ideal) x1 (ix2 (pt b' n) (0 : Fin 1))
      = W x1 (ix3 b' (0 : Fin 3) n) * 32#32 * 32#32 + W x1 (ix3 b' (1 : Fin 3) n) * 32#32 + W x1 (ix3 b' (2 : Fin 3) n)
        + BitVec.ofNat 32 b'.val * 32768#32 := by
  rw [val_main_v29_apply, idx29, word25]

theorem word33 (x1 : (⟨S8x3x100000, .f32⟩ : BufTy).Contents (Elt Ideal)) (b' : Fin 8) (n : Fin 100000) :
    val_main_v33 (F := Ideal) x1 (ix2 (pt b' n) (0 : Fin 1))
      = W x1 (ix3 b' (0 : Fin 3) n) * 32#32 * 32#32 + W x1 (ix3 b' (1 : Fin 3) n) * 32#32 + W x1 (ix3 b' (2 : Fin 3) n)
        + BitVec.ofNat 32 b'.val * 32768#32 := by
  rw [val_main_v33_apply, idx33, word25]

/-- The update row of point `n` of batch `b'` holds the point's channels. -/
theorem upd_val (x0 : (⟨S8x64x100000, .f32⟩ : BufTy).Contents (Elt Ideal)) (b' : Fin 8) (n : Fin 100000) (c : Fin 64) :
    val_main_v27 (F := Ideal) x0 (ix2 (pt b' n) c) = x0 (ix3 b' c n) := by
  rw [val_main_v27_apply, idx27, val_main_v26_apply, idx26]

/-- The count's update value is the number one. -/
theorem ones_val (e : Fin 800000) : val_main_v31 (F := Ideal) (ix1 e) = 1 := by
  rw [val_main_v31_apply, val_main_cst_6_apply]
  exact Voxel.one32_eq

/-- A sum over the 800000 flattened points is the sum over the batches of the sums over each batch's points. -/
theorem sum_pts {M : Type*} [AddCommMonoid M] (f : Fin 800000 → M) :
    ∑ e, f e = ∑ b' : Fin 8, ∑ n : Fin 100000, f (pt b' n) :=
  (Cert.Hand.sum_blocks 8 100000 f).symm

/-- Whether the identifier of point `n` of batch `b'` is row `b * 32768 + v`: the batches agree and the point lies in
    cell `v`. -/
theorem hit (x1 : (⟨S8x3x100000, .f32⟩ : BufTy).Contents (Elt Ideal)) (b' b : Fin 8) (n : Fin 100000) (v : Fin 32768) :
    (W x1 (ix3 b' (0 : Fin 3) n) * 32#32 * 32#32 + W x1 (ix3 b' (1 : Fin 3) n) * 32#32 + W x1 (ix3 b' (2 : Fin 3) n)
        + BitVec.ofNat 32 b'.val * 32768#32).toInt = (((row b v).val : ℕ) : ℤ)
      ↔ (b' = b ∧ Voxel.cell (W x1) b' n = v.val) :=
  Voxel.flat_hit _ _ _ (Voxel.words_le _ x1 _) (Voxel.words_le _ x1 _) (Voxel.words_le _ x1 _) b' b v

/-- A sum over all points of all batches that keeps only the points of batch `b` lying in cell `v`. -/
theorem sum_hits (x1 : (⟨S8x3x100000, .f32⟩ : BufTy).Contents (Elt Ideal)) (b : Fin 8) (v : Fin 32768)
    (idw : (⟨2, ![800000, 1]⟩ : Shape).Idx → BitVec 32) (g : Fin 8 → Fin 100000 → EReal)
    (hw : ∀ b' n, idw (ix2 (pt b' n) (0 : Fin 1))
      = W x1 (ix3 b' (0 : Fin 3) n) * 32#32 * 32#32 + W x1 (ix3 b' (1 : Fin 3) n) * 32#32 + W x1 (ix3 b' (2 : Fin 3) n)
        + BitVec.ofNat 32 b'.val * 32768#32)
    (f : Fin 800000 → EReal) (hf : ∀ b' n, f (pt b' n) = g b' n) :
    (∑ e : Fin 800000, if (idw (ix2 e (0 : Fin 1))).toInt = (((row b v).val : ℕ) : ℤ) then f e else 0)
      = ∑ n : Fin 100000, if Voxel.cell (W x1) b n = v.val then g b n else 0 := by
  rw [sum_pts, Finset.sum_eq_single b]
  · refine Finset.sum_congr rfl fun n _ => ?_
    rw [hw, hf]
    by_cases hc : Voxel.cell (W x1) b n = v.val
    · rw [if_pos hc, if_pos ((hit x1 b b n v).2 ⟨rfl, hc⟩)]
    · rw [if_neg hc, if_neg (fun h => hc ((hit x1 b b n v).1 h).2)]
  · intro b' _ hb'
    refine Finset.sum_eq_zero fun n _ => ?_
    rw [hw, if_neg (fun h => hb' ((hit x1 b' b n v).1 h).1)]
  · intro h
    exact absurd (Finset.mem_univ b) h

/-! ## The two scatters read at a cell -/

/-- The reference's channel scatter, over any operand, identifiers and updates, at row `n`, column `c`. -/
theorem scatter_rows (x : FVec Ideal S262144x64 .f32) (idx : IVec S800000x1 32) (upd : FVec Ideal S800000x64 .f32)
    (n : Fin 262144) (c : Fin 64) :
    Host.scatterAdd scatter_S262144x64_S800000x1_S800000x64_1_0_0_1 x idx upd (ix2 n c)
      = x (ix2 n c) + ∑ e : Fin 800000, if (idx (ix2 e (0 : Fin 1))).toInt = (n.val : Int) then upd (ix2 e c) else 0 := by
  unfold Host.scatterAdd
  rw [Ideal.hostScatterAdd_def]
  exact SegmentSum.hostScatterAdd_rows scatter_S262144x64_S800000x1_S800000x64_1_0_0_1_wf x idx upd n c

/-- The reference's scatter of a column, over any operand, identifiers and updates, at entry `n`. -/
theorem scatter_flat (x : FVec Ideal S262144 .f32) (idx : IVec S800000x1 32) (upd : FVec Ideal S800000 .f32)
    (n : Fin 262144) :
    Host.scatterAdd scatter_S262144_S800000x1_S800000_n_0_0_1 x idx upd (ix1 n)
      = x (ix1 n) + ∑ e : Fin 800000, if (idx (ix2 e (0 : Fin 1))).toInt = (n.val : Int) then upd (ix1 e) else 0 := by
  unfold Host.scatterAdd
  rw [Ideal.hostScatterAdd_def]
  exact hostScatterAdd_flat scatter_S262144_S800000x1_S800000_n_0_0_1_wf x idx upd n

/-- The zero pattern added to anything is that thing. -/
theorem zero_bits_add (y : EReal) : (FloatOps.ofBits (F := Ideal) .f32 0x00000000#32 : EReal) + y = y := by
  show (Ideal.ofBits .f32 0x00000000#32 : EReal) + y = y
  rw [Ideal.ofBits_zero_f32, zero_add]

/-- The channel scatter at row `b * 32768 + v`, column `c`: the total of channel `c` over the points of batch `b` in
    cell `v`. -/
theorem v30_at (x0 : (⟨S8x64x100000, .f32⟩ : BufTy).Contents (Elt Ideal))
    (x1 : (⟨S8x3x100000, .f32⟩ : BufTy).Contents (Elt Ideal)) (b : Fin 8) (c : Fin 64) (v : Fin 32768) :
    val_main_v30 (F := Ideal) x0 x1 (ix2 (row b v) c) = Voxel.total x0 (W x1) b c v.val := by
  unfold val_main_v30
  rw [scatter_rows, val_main_v28_apply, val_main_cst_5_apply, zero_bits_add,
    sum_hits x1 b v (val_main_v29 (F := Ideal) x1) (fun b' n => x0 (ix3 b' c n)) (word29 x1)
      (fun e => val_main_v27 (F := Ideal) x0 (ix2 e c)) (fun b' n => upd_val x0 b' n c)]
  unfold Voxel.total
  rfl

/-- The scatter of ones at row `b * 32768 + v`: the number of points of batch `b` in cell `v`. -/
theorem v34_at (x1 : (⟨S8x3x100000, .f32⟩ : BufTy).Contents (Elt Ideal)) (b : Fin 8) (v : Fin 32768) :
    val_main_v34 (F := Ideal) x1 (ix1 (row b v)) = Voxel.count (W x1) b v.val := by
  unfold val_main_v34
  rw [scatter_flat, val_main_v32_apply, val_main_cst_7_apply, zero_bits_add,
    sum_hits x1 b v (val_main_v33 (F := Ideal) x1) (fun _ _ => (1 : EReal)) (word33 x1)
      (fun e => val_main_v31 (F := Ideal) (ix1 e)) (fun b' n => ones_val (pt b' n))]
  unfold Voxel.count
  rfl

/-! ## The mean -/

/-- The reference's value before its last reshape, at batch `b`, channel `c`, cell `v`: the total over the larger of
    the count and one. -/
theorem ref_mean_at (x0 : (⟨S8x64x100000, .f32⟩ : BufTy).Contents (Elt Ideal))
    (x1 : (⟨S8x3x100000, .f32⟩ : BufTy).Contents (Elt Ideal)) (b : Fin 8) (c : Fin 64) (v : Fin 32768) :
    val_main_v41 (F := Ideal) x0 x1 (ix3 b c v) = Voxel.meanAt x0 (W x1) b c v := by
  rw [val_main_v41_apply, idx41, val_main_v40_apply, idx40, val_main_v39_apply, val_main_v38_apply, idx38,
    val_main_v37_apply, idx37, val_main_v36_apply, val_main_v35_apply, val_main_cst_8_apply, v30_at, v34_at]
  unfold Voxel.meanAt
  generalize Voxel.total x0 (W x1) b c v.val = t
  generalize Voxel.count (W x1) b v.val = k
  rfl

/-- The reference's value before its last reshape is the array of voxel means of the features at the coordinate words. -/
theorem ref_mean (x0 : (⟨Cert.ReferenceIdeal.S8x64x100000, .f32⟩ : BufTy).Contents (Elt Ideal)) (x1 : (⟨Cert.ReferenceIdeal.S8x3x100000, .f32⟩ : BufTy).Contents (Elt Ideal)) :
    Cert.ReferenceIdeal.Read.val_main_v41 (F := Ideal) x0 x1 = Voxel.mean x0 (Voxel.words Cert.ReferenceIdeal.Facts₀.bcast_S_S8x3x100000 x1) := by
  funext i
  exact (congrArg (val_main_v41 (F := Ideal) x0 x1) (eq_ix3 i)).trans (ref_mean_at x0 x1 (i 0) (i 1) (i 2))

end Cert.ReferenceIdeal.RefValue
end
-- ==== Proof.lean ====
/-
  Voxel means of a point cloud: the kernel against its reference, over the extended reals.

  Both programs turn each point's three coordinates into three words from 0 to 31 (scale by 32, clip to [0, 31],
  round to nearest, convert) and hence into one of 32768 cells per batch, and both return those words as their second
  result. The reference adds every channel's values, and a column of ones, into the rows of a table with one row per
  (batch, cell), and divides each total by the larger of the count and one. The kernel goes through the points 512 at a
  time: per tile it multiplies a one-hot table of the x words, stacked with the 64 channels and rows of ones, by a
  one-hot table of the y * 32 + z words, which adds to row c' of cell (x, q) exactly the entries of the points lying in
  that cell; the accumulator starts from zero at each batch's first tile and at the last tile is divided, slab by
  slab, by the larger of its row of counts and one. Padded points carry the x word -1 and add nothing.

  Over the extended reals both are the same array: a sum of products with a one-hot entry is the sum over the points
  of the cell (0 * a = 0 and 1 * a = a for every extended real), finite sums may be re-grouped tile by tile, and the
  two quotients are the same function of total and count. No finiteness of the inputs is used.
-/
import proofs.«126858_j17489106830002_1_alg».proof.Defs
import proofs.«126858_j17489106830002_1_alg».proof.Proof.Gen.Kernel
import proofs.«126858_j17489106830002_1_alg».proof.Proof.Gen.Kernel.Skeleton
import proofs.«126858_j17489106830002_1_alg».proof.Proof.Gen.Kernel.Launch
import proofs.«126858_j17489106830002_1_alg».proof.Proof.Gen.Kernel.Points
import proofs.«126858_j17489106830002_1_alg».proof.Proof.Gen.Kernel.Frame
import proofs.«126858_j17489106830002_1_alg».proof.Proof.Gen.KernelIdeal
import proofs.«126858_j17489106830002_1_alg».proof.Proof.Gen.KernelIdeal.Skeleton
import proofs.«126858_j17489106830002_1_alg».proof.Proof.Gen.KernelIdeal.Launch
import proofs.«126858_j17489106830002_1_alg».proof.Proof.Gen.KernelIdeal.Points
import proofs.«126858_j17489106830002_1_alg».proof.Proof.Gen.KernelIdeal.Frame
import proofs.«126858_j17489106830002_1_alg».proof.Proof.Gen.ReferenceIdeal
import proofs.«126858_j17489106830002_1_alg».proof.Proof.Gen.ReferenceIdeal.Run
import proofs.«126858_j17489106830002_1_alg».proof.Proof.Gen.ReferenceIdeal.Read
import proofs.«126858_j17489106830002_1_alg».proof.Proof.VoxelSpec
import proofs.«126858_j17489106830002_1_alg».proof.Proof.KernelRun
import proofs.«126858_j17489106830002_1_alg».proof.Proof.RefValue
import proofs.«126858_j17489106830002_1_alg».proof.Proof.Gen.Pre_finite_inputs
import Idealize.ShloMosaic.Adequacy
import Idealize.ShloMosaic.Init

noncomputable section

namespace Cert.Proof

open Idealize.ShloMosaic Idealize.SL.Sem

/-- The word-level kernel runs, faults nowhere and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it runs, and writes neither argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

/-- From arguments that agree both programs end with the means in their first result and the coordinate words in
    their second: the kernel by its tile-by-tile accumulation, the reference by its two scatter-additions. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, fun c => Cert.KernelIdeal.Hand.vc m c,
    Cert.KernelIdeal.Hand.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v42_eq]
    unfold Cert.ReferenceIdeal.Read.val_main_v42
    rw [Cert.ReferenceIdeal.RefValue.ref_mean, (hagree c).1, (hagree c).2]
    rfl
  · rw [(h c).2.1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
